-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x2048 : Shape := ⟨2, ![2048, 2048]⟩
abbrev S32768 : Shape := ⟨1, ![32768]⟩
abbrev S2048 : Shape := ⟨1, ![2048]⟩
abbrev S64 : Shape := ⟨1, ![64]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S32768 : S_.BroadcastsInDim S32768 (![] : Fin 0 → Fin S32768.rank)
  reducesTo_S32768_S_d0 : S32768.ReducesTo [0] S_
  bcast_S_S2048 : S_.BroadcastsInDim S2048 (![] : Fin 0 → Fin S2048.rank)
  reducesTo_S2048_S_d0 : S2048.ReducesTo [0] S_
  bcast_S_S64 : S_.BroadcastsInDim S64 (![] : Fin 0 → Fin S64.rank)
  reducesTo_S64_S_d0 : S64.ReducesTo [0] S_

variable [Facts]

def fn_part3 {F : FTy → Type} [FloatOps F] (main_arg9 : IVec S64 32) (main_v44 : IVec S_ 1) (main_v49 : IVec S32768 1) (main_c_19 : IVec S_ 1) : IVec S_ 1 :=
  let main_v50 : IVec S_ 1 := (fun x v => Host.reduce IntOp.andi x v reducesTo_S32768_S_d0 h_S_) main_v49 main_c_19
  let main_v51 : IVec S_ 1 := andi main_v44 main_v50
  let main_c_20 : IVec S_ 32 := constantI S_ 32 0#32
  let main_v52 : IVec S64 32 := broadcastInDim S64 ![] bcast_S_S64 main_c_20
  let main_v53 : IVec S64 1 := cmpi .sge main_arg9 main_v52
  let main_c_21 : IVec S_ 32 := constantI S_ 32 2048#32
  let main_v54 : IVec S64 32 := broadcastInDim S64 ![] bcast_S_S64 main_c_21
  let main_v55 : IVec S64 1 := cmpi .slt main_arg9 main_v54
  let main_v56 : IVec S64 1 := andi main_v53 main_v55
  let main_c_22 : IVec S_ 1 := constantI S_ 1 1#1
  let main_v57 : IVec S_ 1 := (fun x v => Host.reduce IntOp.andi x v reducesTo_S64_S_d0 h_S_) main_v56 main_c_22
  let main_v58 : IVec S_ 1 := andi main_v51 main_v57
  main_v58

def fn_part2 {F : FTy → Type} [FloatOps F] (main_arg6 : IVec S32768 32) (main_arg7 : IVec S32768 32) (main_arg8 : IVec S32768 32) (main_arg9 : IVec S64 32) (main_v30 : IVec S_ 1) (main_v32 : IVec S32768 1) (main_c_12 : IVec S_ 32) : IVec S_ 1 :=
  let main_v33 : IVec S32768 32 := broadcastInDim S32768 ![] bcast_S_S32768 main_c_12
  let main_v34 : IVec S32768 1 := cmpi .slt main_arg6 main_v33
  let main_v35 : IVec S32768 1 := andi main_v32 main_v34
  let main_c_13 : IVec S_ 1 := constantI S_ 1 1#1
  let main_v36 : IVec S_ 1 := (fun x v => Host.reduce IntOp.andi x v reducesTo_S32768_S_d0 h_S_) main_v35 main_c_13
  let main_v37 : IVec S_ 1 := andi main_v30 main_v36
  let main_c_14 : IVec S_ 32 := constantI S_ 32 0#32
  let main_v38 : IVec S32768 32 := broadcastInDim S32768 ![] bcast_S_S32768 main_c_14
  let main_v39 : IVec S32768 1 := cmpi .sge main_arg7 main_v38
  let main_c_15 : IVec S_ 32 := constantI S_ 32 2048#32
  let main_v40 : IVec S32768 32 := broadcastInDim S32768 ![] bcast_S_S32768 main_c_15
  let main_v41 : IVec S32768 1 := cmpi .slt main_arg7 main_v40
  let main_v42 : IVec S32768 1 := andi main_v39 main_v41
  let main_c_16 : IVec S_ 1 := constantI S_ 1 1#1
  let main_v43 : IVec S_ 1 := (fun x v => Host.reduce IntOp.andi x v reducesTo_S32768_S_d0 h_S_) main_v42 main_c_16
  let main_v44 : IVec S_ 1 := andi main_v37 main_v43
  let main_c_17 : IVec S_ 32 := constantI S_ 32 0#32
  let main_v45 : IVec S32768 32 := broadcastInDim S32768 ![] bcast_S_S32768 main_c_17
  let main_v46 : IVec S32768 1 := cmpi .sge main_arg8 main_v45
  let main_c_18 : IVec S_ 32 := constantI S_ 32 2048#32
  let main_v47 : IVec S32768 32 := broadcastInDim S32768 ![] bcast_S_S32768 main_c_18
  let main_v48 : IVec S32768 1 := cmpi .slt main_arg8 main_v47
  let main_v49 : IVec S32768 1 := andi main_v46 main_v48
  let main_c_19 : IVec S_ 1 := constantI S_ 1 1#1
  fn_part3 (F := F) main_arg9 main_v44 main_v49 main_c_19

def fn_part1 {F : FTy → Type} [FloatOps F] (main_arg4 : FVec F S2048 .f32) (main_arg5 : IVec S32768 32) (main_arg6 : IVec S32768 32) (main_arg7 : IVec S32768 32) (main_arg8 : IVec S32768 32) (main_arg9 : IVec S64 32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_c_8 : IVec S_ 32 := constantI S_ 32 0#32
  let main_v24 : IVec S32768 32 := broadcastInDim S32768 ![] bcast_S_S32768 main_c_8
  let main_v25 : IVec S32768 1 := cmpi .sge main_arg5 main_v24
  let main_c_9 : IVec S_ 32 := constantI S_ 32 512#32
  let main_v26 : IVec S32768 32 := broadcastInDim S32768 ![] bcast_S_S32768 main_c_9
  let main_v27 : IVec S32768 1 := cmpi .slt main_arg5 main_v26
  let main_v28 : IVec S32768 1 := andi main_v25 main_v27
  let main_c_10 : IVec S_ 1 := constantI S_ 1 1#1
  let main_v29 : IVec S_ 1 := (fun x v => Host.reduce IntOp.andi x v reducesTo_S32768_S_d0 h_S_) main_v28 main_c_10
  let main_v30 : IVec S_ 1 := andi main_v23 main_v29
  let main_c_11 : IVec S_ 32 := constantI S_ 32 0#32
  let main_v31 : IVec S32768 32 := broadcastInDim S32768 ![] bcast_S_S32768 main_c_11
  let main_v32 : IVec S32768 1 := cmpi .sge main_arg6 main_v31
  let main_c_12 : IVec S_ 32 := constantI S_ 32 2048#32
  fn_part2 (F := F) main_arg6 main_arg7 main_arg8 main_arg9 main_v30 main_v32 main_c_12

def fn {F : FTy → Type} [FloatOps F] (main_arg0 : FVec F S2048x512 .f32) (main_arg1 : FVec F S2048x2048 .f32) (main_arg2 : FVec F S32768 .f32) (main_arg3 : FVec F S32768 .f32) (main_arg4 : FVec F S2048 .f32) (main_arg5 : IVec S32768 32) (main_arg6 : IVec S32768 32) (main_arg7 : IVec S32768 32) (main_arg8 : IVec S32768 32) (main_arg9 : IVec S64 32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_v13 main_v16
-- ==== Kernel.lean ====
abbrev S2048x512 : Shape := ⟨2, ![2048, 512]⟩
abbrev S2048x2048 : Shape := ⟨2, ![2048, 2048]⟩
abbrev S32768 : Shape := ⟨1, ![32768]⟩
abbrev S2048 : Shape := ⟨1, ![2048]⟩
abbrev S64 : Shape := ⟨1, ![64]⟩
abbrev S_ : Shape := ⟨0, ![]⟩
abbrev S64x1 : Shape := ⟨2, ![64, 1]⟩
abbrev S32768x1 : Shape := ⟨2, ![32768, 1]⟩
abbrev S65x512 : Shape := ⟨2, ![65, 512]⟩
abbrev S32768x2 : Shape := ⟨2, ![32768, 2]⟩
abbrev S65x2048 : Shape := ⟨2, ![65, 2048]⟩
abbrev S64x512 : Shape := ⟨2, ![64, 512]⟩
abbrev S64x2048 : Shape := ⟨2, ![64, 2048]⟩
abbrev S512x512 : Shape := ⟨2, ![512, 512]⟩
abbrev S512x2048 : Shape := ⟨2, ![512, 2048]⟩
abbrev S2048x64 : Shape := ⟨2, ![2048, 64]⟩

abbrev nBuf : Space → Nat
  | .hbm => 121
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S32768, .f32⟩
  | .hbm, ⟨3, _⟩ => ⟨S32768, .f32⟩
  | .hbm, ⟨4, _⟩ => ⟨S2048, .f32⟩
  | .hbm, ⟨5, _⟩ => ⟨S32768, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S64, .i32⟩
  | .hbm, ⟨10, _⟩ => ⟨S_, .i32⟩
  | .hbm, ⟨11, _⟩ => ⟨S2048, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S2048, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i1⟩
  | .hbm, ⟨34, _⟩ => ⟨S_, .i32⟩
  | .hbm, ⟨35, _⟩ => ⟨S32768, .i32⟩
  | .hbm, ⟨36, _⟩ => ⟨S32768, .i32⟩
  | .hbm, ⟨37, _⟩ => ⟨S32768, .i32⟩
  | .hbm, ⟨38, _⟩ => ⟨S32768x1, .i32⟩
  | .hbm, ⟨39, _⟩ => ⟨S32768, .i32⟩
  | .hbm, ⟨40, _⟩ => ⟨S_, .f32⟩
  | .hbm, ⟨41, _⟩ => ⟨S65x512, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S32768x1, .i32⟩
  | .hbm, ⟨58, _⟩ => ⟨S32768x2, .i32⟩
  | .hbm, ⟨59, _⟩ => ⟨S65x512, .f32⟩
  | .hbm, ⟨60, _⟩ => ⟨S_, .f32⟩
  | .hbm, ⟨61, _⟩ => ⟨S65x2048, .f32⟩
  | .hbm, ⟨62, _⟩ => ⟨S_, .i32⟩
  | .hbm, ⟨63, _⟩ => ⟨S32768, .i32⟩
  | .hbm, ⟨64, _⟩ => ⟨S32768, .i1⟩
  | .hbm, ⟨65, _⟩ => ⟨S_, .i32⟩
  | .hbm, ⟨66, _⟩ => ⟨S32768, .i32⟩
  | .hbm, ⟨67, _⟩ => ⟨S32768, .i32⟩
  | .hbm, ⟨68, _⟩ => ⟨S32768, .i32⟩
  | .hbm, ⟨69, _⟩ => ⟨S_, .i32⟩
  | .hbm, ⟨70, _⟩ => ⟨S32768, .i32⟩
  | .hbm, ⟨71, _⟩ => ⟨S32768, .i1⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S32768, .i32⟩
  | .hbm, ⟨76, _⟩ => ⟨S32768x1, .i32⟩
  | .hbm, ⟨77, _⟩ => ⟨S32768x1, .i32⟩
  | .hbm, ⟨78, _⟩ => ⟨S32768x2, .i32⟩
  | .hbm, ⟨79, _⟩ => ⟨S65x2048, .f32⟩
  | .hbm, ⟨80, _⟩ => ⟨S_, .i32⟩
  | .hbm, ⟨81, _⟩ => ⟨S64, .i32⟩
  | .hbm, ⟨82, _⟩ => ⟨S64, .i1⟩
  | .hbm, ⟨83, _⟩ => ⟨S_, .i32⟩
  | .hbm, ⟨84, _⟩ => ⟨S64, .i32⟩
  | .hbm, ⟨85, _⟩ => ⟨S64, .i32⟩
  | .hbm, ⟨86, _⟩ => ⟨S64, .i32⟩
  | .hbm, ⟨87, _⟩ => ⟨S64x1, .i32⟩
  | .hbm, ⟨88, _⟩ => ⟨S64, .i32⟩
  | .hbm, ⟨89, _⟩ => ⟨S_, .i32⟩
  | .hbm, ⟨90, _⟩ => ⟨S64, .i32⟩
  | .hbm, ⟨91, _⟩ => ⟨S64, .i1⟩
  | .hbm, ⟨92, _⟩ => ⟨S_, .i32⟩
  | .hbm, ⟨93, _⟩ => ⟨S64, .i32⟩
  | .hbm, ⟨94, _⟩ => ⟨S64, .i32⟩
  | .hbm, ⟨95, _⟩ => ⟨S64, .i32⟩
  | .hbm, ⟨96, _⟩ => ⟨S64x1, .i32⟩
  | .hbm, ⟨97, _⟩ => ⟨S64x512, .f32⟩
  | .hbm, ⟨98, _⟩ => ⟨S64x512, .bf16⟩
  | .hbm, ⟨99, _⟩ => ⟨S_, .i32⟩
  | .hbm, ⟨100, _⟩ => ⟨S64, .i32⟩
  | .hbm, ⟨101, _⟩ => ⟨S64, .i1⟩
  | .hbm, ⟨102, _⟩ => ⟨S_, .i32⟩
  | .hbm, ⟨103, _⟩ => ⟨S64, .i32⟩
  | .hbm, ⟨104, _⟩ => ⟨S64, .i32⟩
  | .hbm, ⟨105, _⟩ => ⟨S64, .i32⟩
  | .hbm, ⟨106, _⟩ => ⟨S64x1, .i32⟩
  | .hbm, ⟨107, _⟩ => ⟨S64x2048, .f32⟩
  | .hbm, ⟨108, _⟩ => ⟨S64x2048, .bf16⟩
  | .hbm, ⟨109, _⟩ => ⟨S_, .i32⟩
  | .hbm, ⟨110, _⟩ => ⟨S64, .i32⟩
  | .hbm, ⟨111, _⟩ => ⟨S64, .i1⟩
  | .hbm, ⟨112, _⟩ => ⟨S_, .i32⟩
  | .hbm, ⟨113, _⟩ => ⟨S64, .i32⟩
  | .hbm, ⟨114, _⟩ => ⟨S64, .i32⟩
  | .hbm, ⟨115, _⟩ => ⟨S64, .i32⟩
  | .hbm, ⟨116, _⟩ => ⟨S64x1, .i32⟩
  | .hbm, ⟨117, _⟩ => ⟨S64, .f32⟩
  | .hbm, ⟨118, _⟩ => ⟨S64x1, .f32⟩
  | .hbm, ⟨119, _⟩ => ⟨S64x2048, .f32⟩
  | .hbm, ⟨120, _⟩ => ⟨S2048x64, .f32⟩
  | .local _ .vmem, ⟨0, _⟩ => ⟨S64x512, .bf16⟩
  | .local _ .vmem, ⟨1, _⟩ => ⟨S512x512, .f32⟩
  | .local _ .vmem, ⟨2, _⟩ => ⟨S512x512, .f32⟩
  | .local _ .vmem, ⟨3, _⟩ => ⟨S64x2048, .bf16⟩
  | .local _ .vmem, ⟨4, _⟩ => ⟨S512x2048, .f32⟩
  | .local _ .vmem, ⟨5, _⟩ => ⟨S512x2048, .f32⟩
  | .local _ .vmem, ⟨6, _⟩ => ⟨S64x1, .f32⟩
  | .local _ .vmem, ⟨7, _⟩ => ⟨S64x512, .f32⟩
  | .local _ .vmem, ⟨8, _⟩ => ⟨S64x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_c_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_v44 : Ref sig .tc := ⟨.hbm, 70, rfl⟩
abbrev main_v45 : Ref sig .tc := ⟨.hbm, 71, rfl⟩
abbrev main_c_14 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_c_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_17 : Ref sig .tc := ⟨.hbm, 89, rfl⟩
abbrev main_v60 : Ref sig .tc := ⟨.hbm, 90, rfl⟩
abbrev main_v61 : Ref sig .tc := ⟨.hbm, 91, rfl⟩
abbrev main_c_18 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_19 : Ref sig .tc := ⟨.hbm, 99, rfl⟩
abbrev main_v68 : Ref sig .tc := ⟨.hbm, 100, rfl⟩
abbrev main_v69 : Ref sig .tc := ⟨.hbm, 101, rfl⟩
abbrev main_c_20 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_21 : Ref sig .tc := ⟨.hbm, 109, rfl⟩
abbrev main_v76 : Ref sig .tc := ⟨.hbm, 110, rfl⟩
abbrev main_v77 : Ref sig .tc := ⟨.hbm, 111, rfl⟩
abbrev main_c_22 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S65x512 : S_.BroadcastsInDim S65x512 (![] : Fin 0 → Fin S65x512.rank)
  concatenates_S32768x1_S32768x1_S32768x2_d1 : Shape.Concatenates [S32768x1, S32768x1] S32768x2 1
  bcast_S_S65x2048 : S_.BroadcastsInDim S65x2048 (![] : Fin 0 → Fin S65x2048.rank)
  bitsLt_bf16_f32 : FTy.bits .bf16 < FTy.bits .f32
  shapeCasts_S64_S64x1 : S64.ShapeCasts S64x1
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  transposes_S64x2048_S2048x64_1_0 : S64x2048.Transposes [1, 0] S2048x64
  scatter_S2048_S64x1_S64_n_0_0_1_wf : ScatterDims.WF S2048 S64x1 S64 [] [0] [0] 1
  gather_S2048_S32768x1_S32768_n_0_n_n_0_1_1_wf : GatherDims.WF S2048 S32768x1 S32768 [] [0] [] [0] [] 1 ![1]
  scatter_S65x512_S32768x2_S32768_n_01_01_1_wf : ScatterDims.WF S65x512 S32768x2 S32768 [] [0, 1] [0, 1] 1
  scatter_S65x2048_S32768x2_S32768_n_01_01_1_wf : ScatterDims.WF S65x2048 S32768x2 S32768 [] [0, 1] [0, 1] 1
  gather_S2048_S64x1_S64_n_0_n_n_0_1_1_wf : GatherDims.WF S2048 S64x1 S64 [] [0] [] [0] [] 1 ![1]
  gather_S65x512_S64x1_S64x512_1_0_n_n_0_1_1512_wf : GatherDims.WF S65x512 S64x1 S64x512 [1] [0] [] [0] [] 1 ![1, 512]
  gather_S65x2048_S64x1_S64x2048_1_0_n_n_0_1_12048_wf : GatherDims.WF S65x2048 S64x1 S64x2048 [1] [0] [] [0] [] 1 ![1, 2048]
  dot_S64x512_S512x512_S64x512_1_1_0_0_n_n_wf : DotDims.WF S64x512 S512x512 S64x512 [1] [1] [0] [0] [] []
  dot_S64x2048_S512x2048_S64x512_1_1_0_0_n_n_wf : DotDims.WF S64x2048 S512x2048 S64x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .bf16 = 32 ∨ (Rect.block (s := S64x512) S64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .f32 = 32 ∨ (Rect.block (s := S2048x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .bf16 = 32 ∨ (Rect.block (s := S64x2048) S64x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x2048.size a
  hwx0_5 : ∀ i : grid0.Coords, EltTy.bits .f32 = 32 ∨ (Rect.block (s := S64x2048) S64x512.size (cc0_transform_5 i) (hinb0_5 i)).WholeWords (EltTy.packing .f32)

variable [Facts₀]

def scatter_S2048_S64x1_S64_n_0_0_1 : ScatterDims S2048 S64x1 S64 where
  updateWindowDims := []
  insertedWindowDims := [0]
  scatterDimsToOperandDims := [0]
  indexVectorDim := 1
  wf := scatter_S2048_S64x1_S64_n_0_0_1_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf
def scatter_S65x512_S32768x2_S32768_n_01_01_1 : ScatterDims S65x512 S32768x2 S32768 where
  updateWindowDims := []
  insertedWindowDims := [0, 1]
  scatterDimsToOperandDims := [0, 1]
  indexVectorDim := 1
  wf := scatter_S65x512_S32768x2_S32768_n_01_01_1_wf
def scatter_S65x2048_S32768x2_S32768_n_01_01_1 : ScatterDims S65x2048 S32768x2 S32768 where
  updateWindowDims := []
  insertedWindowDims := [0, 1]
  scatterDimsToOperandDims := [0, 1]
  indexVectorDim := 1
  wf := scatter_S65x2048_S32768x2_S32768_n_01_01_1_wf
def gather_S2048_S64x1_S64_n_0_n_n_0_1_1 : GatherDims S2048 S64x1 S64 where
  offsetDims := []
  collapsedSliceDims := [0]
  operandBatchingDims := []
  startIndicesBatchingDims := []
  startIndexMap := [0]
  indexVectorDim := 1
  sliceSizes := ![1]
  wf := gather_S2048_S64x1_S64_n_0_n_n_0_1_1_wf
def gather_S65x512_S64x1_S64x512_1_0_n_n_0_1_1512 : GatherDims S65x512 S64x1 S64x512 where
  offsetDims := [1]
  collapsedSliceDims := [0]
  operandBatchingDims := []
  startIndicesBatchingDims := []
  startIndexMap := [0]
  indexVectorDim := 1
  sliceSizes := ![1, 512]
  wf := gather_S65x512_S64x1_S64x512_1_0_n_n_0_1_1512_wf
def gather_S65x2048_S64x1_S64x2048_1_0_n_n_0_1_12048 : GatherDims S65x2048 S64x1 S64x2048 where
  offsetDims := [1]
  collapsedSliceDims := [0]
  operandBatchingDims := []
  startIndicesBatchingDims := []
  startIndexMap := [0]
  indexVectorDim := 1
  sliceSizes := ![1, 2048]
  wf := gather_S65x2048_S64x1_S64x2048_1_0_n_n_0_1_12048_wf
def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf
def dot_S64x2048_S512x2048_S64x512_1_1_0_0_n_n : DotDims S64x2048 S512x2048 S64x512 where
  lhsContracting := [1]
  rhsContracting := [1]
  lhsNonContracting := [0]
  rhsNonContracting := [0]
  lhsBatch := []
  rhsBatch := []
  wf := dot_S64x2048_S512x2048_S64x512_1_1_0_0_n_n_wf

abbrev win0_0 : Pipeline.Window sig grid0 :=
  Pipeline.Window.ofSpec (Memref.whole main_v67) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v83) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v84) S64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x2048 : Shape := ⟨2, ![2048, 2048]⟩
abbrev S32768 : Shape := ⟨1, ![32768]⟩
abbrev S2048 : Shape := ⟨1, ![2048]⟩
abbrev S64 : Shape := ⟨1, ![64]⟩
abbrev S512x2048 : Shape := ⟨2, ![512, 2048]⟩
abbrev S_ : Shape := ⟨0, ![]⟩
abbrev S32768x1 : Shape := ⟨2, ![32768, 1]⟩
abbrev S32768x2048 : Shape := ⟨2, ![32768, 2048]⟩
abbrev S2048x1 : Shape := ⟨2, ![2048, 1]⟩
abbrev S64x1 : Shape := ⟨2, ![64, 1]⟩
abbrev S2048x64 : Shape := ⟨2, ![2048, 64]⟩

abbrev nBuf : Space → Nat
  | .hbm => 59
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S32768, .f32⟩
  | .hbm, ⟨3, _⟩ => ⟨S32768, .f32⟩
  | .hbm, ⟨4, _⟩ => ⟨S2048, .f32⟩
  | .hbm, ⟨5, _⟩ => ⟨S32768, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S64, .i32⟩
  | .hbm, ⟨10, _⟩ => ⟨S512x2048, .f32⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768x1, .i32⟩
  | .hbm, ⟨19, _⟩ => ⟨S32768x2048, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S2048x2048, .f32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S32768x2048, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S2048x2048, .f32⟩
  | .hbm, ⟨38, _⟩ => ⟨S32768x1, .i32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S32768x1, .i32⟩
  | .hbm, ⟨43, _⟩ => ⟨S2048x2048, .f32⟩
  | .hbm, ⟨44, _⟩ => ⟨S2048x2048, .f32⟩
  | .hbm, ⟨45, _⟩ => ⟨S2048x1, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S64, .i32⟩
  | .hbm, ⟨57, _⟩ => ⟨S64x1, .i32⟩
  | .hbm, ⟨58, _⟩ => ⟨S2048x64, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  transposes_S2048x2048_S2048x2048_1_0 : S2048x2048.Transposes [1, 0] S2048x2048
  bcast_S_S2048x2048 : S_.BroadcastsInDim S2048x2048 (![] : Fin 0 → Fin S2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S64 : S_.BroadcastsInDim S64 (![] : Fin 0 → Fin S64.rank)
  bcast_S64_S64x1_0 : S64.BroadcastsInDim S64x1 (![0] : Fin 1 → Fin S64x1.rank)
  gather_S512x2048_S32768x1_S32768x2048_1_0_n_n_0_1_12048_wf : GatherDims.WF S512x2048 S32768x1 S32768x2048 [1] [0] [] [0] [] 1 ![1, 2048]
  gather_S2048x2048_S32768x1_S32768x2048_1_0_n_n_0_1_12048_wf : GatherDims.WF S2048x2048 S32768x1 S32768x2048 [1] [0] [] [0] [] 1 ![1, 2048]
  scatter_S2048x2048_S32768x1_S32768x2048_1_0_0_1_wf : ScatterDims.WF S2048x2048 S32768x1 S32768x2048 [1] [0] [0] 1
  gather_S2048x2048_S64x1_S2048x64_0_1_n_n_1_1_20481_wf : GatherDims.WF S2048x2048 S64x1 S2048x64 [0] [1] [] [1] [] 1 ![2048, 1]

variable [Facts₀]

def gather_S512x2048_S32768x1_S32768x2048_1_0_n_n_0_1_12048 : GatherDims S512x2048 S32768x1 S32768x2048 where
  offsetDims := [1]
  collapsedSliceDims := [0]
  operandBatchingDims := []
  startIndicesBatchingDims := []
  startIndexMap := [0]
  indexVectorDim := 1
  sliceSizes := ![1, 2048]
  wf := gather_S512x2048_S32768x1_S32768x2048_1_0_n_n_0_1_12048_wf
def gather_S2048x2048_S32768x1_S32768x2048_1_0_n_n_0_1_12048 : GatherDims S2048x2048 S32768x1 S32768x2048 where
  offsetDims := [1]
  collapsedSliceDims := [0]
  operandBatchingDims := []
  startIndicesBatchingDims := []
  startIndexMap := [0]
  indexVectorDim := 1
  sliceSizes := ![1, 2048]
  wf := gather_S2048x2048_S32768x1_S32768x2048_1_0_n_n_0_1_12048_wf
def scatter_S2048x2048_S32768x1_S32768x2048_1_0_0_1 : ScatterDims S2048x2048 S32768x1 S32768x2048 where
  updateWindowDims := [1]
  insertedWindowDims := [0]
  scatterDimsToOperandDims := [0]
  indexVectorDim := 1
  wf := scatter_S2048x2048_S32768x1_S32768x2048_1_0_0_1_wf
def gather_S2048x2048_S64x1_S2048x64_0_1_n_n_1_1_20481 : GatherDims S2048x2048 S64x1 S2048x64 where
  offsetDims := [0]
  collapsedSliceDims := [1]
  operandBatchingDims := []
  startIndicesBatchingDims := []
  startIndexMap := [1]
  indexVectorDim := 1
  sliceSizes := ![2048, 1]
  wf := gather_S2048x2048_S64x1_S2048x64_0_1_n_n_1_1_20481_wf

class Facts : Prop extends Facts₀ where

variable [Facts]
-- ==== Proof.LibGather.lean ====
/-
  jnp's row and column takes of a rank-2 table, read at an index. `x[idx]` lowers to a gather whose start indices are an
  [n × 1] column: result (p, q) is the table at (clamp idx[p], q), the start read signed and clamped into the table;
  `x[:, idx]` is the same on the second axis. A word already inside the table is its own clamp.
-/
import Idealize.ShloMosaic.Lib.ValueIdx
import Idealize.ShloMosaic.Lib.StableHlo.Predicate

noncomputable section

namespace Cert.Lib.ScatterGather

open Idealize.ShloMosaic Idealize.ShloMosaic.ValueIdx

/-- A word read signed and clamped into `[0, N)`: the position a gather reads. -/
def clampFin (N : Nat) (hN : 0 < N) (v : BitVec 32) : Fin N := ⟨min v.toInt.toNat (N - 1), by omega⟩

/-- A word below 2³¹ reads the same signed and unsigned. -/
theorem toInt_of_lt (v : BitVec 32) (h : v.toNat < 2 ^ 31) : v.toInt = (v.toNat : Int) := by
  rw [BitVec.toInt_eq_toNat_cond, if_pos (by omega)]

/-- A word already in `[0, N)` is its own clamp. -/
theorem clampFin_val_of_lt (N : Nat) (hN : 0 < N) (hN31 : N ≤ 2 ^ 31) (v : BitVec 32) (h : v.toNat < N) :
    (clampFin N hN v).val = v.toNat := by
  show min v.toInt.toNat (N - 1) = v.toNat
  rw [toInt_of_lt v (by omega), Int.toNat_natCast]
  omega

/-- `x[idx]` of a rank-2 table, whole rows: result (p, q) is the table at (clamp idx[p], q). -/
theorem gather_rows_apply {α : Type} {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![n, 1]⟩ 32) (p : Fin n) (q : Fin C) :
    Host.gather d x idx (ix2 p q) = x (ix2 (clampFin N hN (idx (ix2 p 0))) q) := by
  have hb : ∀ a : Fin 2, a ∉ d.operandBatchingDims := fun a => by rw [hob]; exact List.not_mem_nil
  -- the result's one batch axis is axis 0, its one offset axis is axis 1
  have hbatch : ∀ X : Fin 2, X ∈ d.batchDims → X = 0 := by
    intro X hX
    have h1 : X ∉ d.offsetDims := by
      have := (List.mem_filter.1 hX).2
      simpa using this
    rw [hoff, List.mem_singleton] at h1
    have h2 : X.val ≠ 1 := fun h => h1 (Fin.ext h)
    exact Fin.ext (by have := X.isLt; show X.val = 0; omega)
  have hoffs : ∀ X : Fin 2, X ∈ d.offsetDims → X = 1 := by
    intro X hX; rw [hoff, List.mem_singleton] at hX; exact hX
  -- the start index of result (p, q) is read at (p, 0)
  have hsi : ∀ c, d.siIdx (ix2 p q) c = ix2 p 0 := by
    intro c
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, C]⟩ : Shape).Idx) X).val = p.val :=
        fun X hX => by subst hX; rfl
      exact e _ (hbatch _ (List.getElem_mem _))
    | ⟨1, _⟩ =>
      unfold GatherDims.siIdx
      rw [dif_pos (by rw [hivd])]
      apply Fin.ext
      show c.val = 0
      have hc : c.val < d.startIndexMap.length := c.isLt
      have hl : d.startIndexMap.length = 1 := by rw [hsim]; rfl
      omega
  -- axis 0, collapsed and start-indexed: the clamped start
  have h0 : (d.operandIdx (ix2 p q) idx 0).val = (clampFin N hN (idx (ix2 p 0))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0
      = min (idx (ix2 p 0)).toInt.toNat (N - 1)
    rw [d.batchCoord_eq_zero _ _ (hb 0), d.offCoord_eq_zero _ _ hk, Nat.add_zero]
    unfold GatherDims.start
    rw [dif_pos hm, hsi, hsl]
    rfl
  -- axis 1, kept whole: the result's offset coordinate
  have h1 : (d.operandIdx (ix2 p q) idx 1).val = q.val := by
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    unfold GatherDims.start GatherDims.offCoord
    rw [dif_neg hm, dif_pos hk]
    have e : ∀ X : Fin 2, X = 1 → ((ix2 p q : (⟨2, ![n, C]⟩ : Shape).Idx) X).val = q.val :=
      fun X hX => by subst hX; rfl
    rw [e _ (hoffs _ (List.getElem_mem _))]
    omega
  unfold Host.gather
  congr 1
  funext a
  match a with
  | ⟨0, _⟩ => exact Fin.ext h0
  | ⟨1, _⟩ => exact Fin.ext h1

/-- `x[:, idx]` of a rank-2 table, whole columns: result (b, p) is the table at (b, clamp idx[p]). -/
theorem gather_cols_apply {α : Type} {B N n : Nat} (d : GatherDims ⟨2, ![B, N]⟩ ⟨2, ![n, 1]⟩ ⟨2, ![B, n]⟩)
    (hoff : d.offsetDims = [0]) (hcoll : d.collapsedSliceDims = [1]) (hob : d.operandBatchingDims = [])
    (hsim : d.startIndexMap = [1]) (hivd : d.indexVectorDim = 1) (hN : 0 < N)
    (x : (⟨2, ![B, N]⟩ : Shape).Idx → α) (idx : IVec ⟨2, ![n, 1]⟩ 32) (b : Fin B) (p : Fin n) :
    Host.gather d x idx (ix2 b p) = x (ix2 b (clampFin N hN (idx (ix2 p 0)))) := by
  have hb : ∀ a : Fin 2, a ∉ d.operandBatchingDims := fun a => by rw [hob]; exact List.not_mem_nil
  -- the result's one batch axis is axis 1, its one offset axis is axis 0
  have hbatch : ∀ X : Fin 2, X ∈ d.batchDims → X = 1 := by
    intro X hX
    have h1 : X ∉ d.offsetDims := by
      have := (List.mem_filter.1 hX).2
      simpa using this
    rw [hoff, List.mem_singleton] at h1
    have h2 : X.val ≠ 0 := fun h => h1 (Fin.ext h)
    exact Fin.ext (by have := X.isLt; show X.val = 1; omega)
  have hoffs : ∀ X : Fin 2, X ∈ d.offsetDims → X = 0 := by
    intro X hX; rw [hoff, List.mem_singleton] at hX; exact hX
  -- the start index of result (b, p) is read at (p, 0)
  have hsi : ∀ c, d.siIdx (ix2 b p) c = ix2 p 0 := by
    intro c
    funext a
    match a with
    | ⟨0, _⟩ =>
      unfold GatherDims.siIdx
      rw [dif_neg (by rw [hivd]; simp)]
      unfold GatherDims.siCoord
      apply Fin.ext
      simp only [Fin.val_cast]
      have e : ∀ X : Fin 2, X = 1 → ((ix2 b p : (⟨2, ![B, n]⟩ : Shape).Idx) X).val = p.val :=
        fun X hX => by subst hX; rfl
      exact e _ (hbatch _ (List.getElem_mem _))
    | ⟨1, _⟩ =>
      unfold GatherDims.siIdx
      rw [dif_pos (by rw [hivd])]
      apply Fin.ext
      show c.val = 0
      have hc : c.val < d.startIndexMap.length := c.isLt
      have hl : d.startIndexMap.length = 1 := by rw [hsim]; rfl
      omega
  -- axis 0, kept whole: the result's offset coordinate
  have h0 : (d.operandIdx (ix2 b p) idx 0).val = b.val := by
    have hk : (0 : Fin 2) ∈ d.sKept := by rw [GatherDims.mem_sKept, hcoll, hob]; simp
    have hm : (0 : Fin 2) ∉ d.startIndexMap := by rw [hsim]; simp
    show d.start (ix2 b p) idx 0 + d.batchCoord (ix2 b p) 0 + d.offCoord (ix2 b p) 0 = b.val
    rw [d.batchCoord_eq_zero _ _ (hb 0)]
    unfold GatherDims.start GatherDims.offCoord
    rw [dif_neg hm, dif_pos hk]
    have e : ∀ X : Fin 2, X = 0 → ((ix2 b p : (⟨2, ![B, n]⟩ : Shape).Idx) X).val = b.val :=
      fun X hX => by subst hX; rfl
    rw [e _ (hoffs _ (List.getElem_mem _))]
    omega
  -- axis 1, collapsed and start-indexed: the clamped start
  have h1 : (d.operandIdx (ix2 b p) idx 1).val = (clampFin N hN (idx (ix2 p 0))).val := by
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 b p) idx 1 + d.batchCoord (ix2 b p) 1 + d.offCoord (ix2 b p) 1
      = min (idx (ix2 p 0)).toInt.toNat (N - 1)
    rw [d.batchCoord_eq_zero _ _ (hb 1), d.offCoord_eq_zero _ _ hk, Nat.add_zero]
    unfold GatherDims.start
    rw [dif_pos hm, hsi, hsl]
    rfl
  unfold Host.gather
  congr 1
  funext a
  match a with
  | ⟨0, _⟩ => exact Fin.ext h0
  | ⟨1, _⟩ => exact Fin.ext h1

/-- `x[idx]` of a rank-1 table (start indices an [n × 1] column): result p is the table at clamp idx[p]. -/
theorem gather_take_apply' {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ 32) (p : Fin n) :
    Host.gather d x idx (ix1 p) = x (ix1 (clampFin N hN (idx (ix2 p 0)))) := by
  have e1 : ∀ k : Fin n, (ix1 k : (⟨1, ![n]⟩ : Shape).Idx) = Shape.Idx.ofFin k := fun k => by
    funext a; match a with | ⟨0, _⟩ => exact Fin.ext rfl
  have e1' : ∀ k : Fin N, (ix1 k : (⟨1, ![N]⟩ : Shape).Idx) = Shape.Idx.ofFin k := fun k => by
    funext a; match a with | ⟨0, _⟩ => exact Fin.ext rfl
  have e2 : (ix2 p (0 : Fin 1) : (⟨2, ![n, 1]⟩ : Shape).Idx) = StableHlo.Predicate.ixP p := by
    funext a; match a with | ⟨0, _⟩ => rfl | ⟨1, _⟩ => rfl
  rw [e1, e1', e2]
  exact StableHlo.Predicate.gather_take d hcoll hob hsim hivd x idx p hN

end Cert.Lib.ScatterGather

end
-- ==== Proof.Spec.lean ====
/-
  What both programs compute. Two weighted edge lists (input edges into F = 512 feature columns, recurrent edges into
  N = 2048 state columns) send, for batch row b, into node k the sum over the edges e with dst e = k of X[b, src e] · w e; the
  activation of node k is tanh of the two sums plus bias k, and the result [2048 × 64] holds, at (b, i), the activation of
  node keys i.  `G` is that function of the ten argument arrays; `outAt` is the kernel body's entry (i, b) from the five arrays
  its windows stage (two gathered adjacency blocks, the two dense inputs, the gathered bias column); `Dom` is the domain the
  statement is made on: every float entry finite, every index inside the array it indexes.
-/
import proofs.«422908_j73521250173176_3_alg».proof.Proof.LibGather
import Idealize.ShloMosaic.PureOps.Ideal

noncomputable section

namespace Cert.Spec

open Idealize.ShloMosaic Idealize.ShloMosaic.ValueIdx Cert.Lib.ScatterGather

abbrev A2 (a b : Nat) : Type := (⟨2, ![a, b]⟩ : Shape).Idx → EReal
abbrev A1 (a : Nat) : Type := (⟨1, ![a]⟩ : Shape).Idx → EReal
abbrev I1 (a : Nat) : Type := IVec ⟨1, ![a]⟩ 32

/-- The messages one edge list sends into node `k` for batch row `b`: the sum over the edges whose destination is `k` of the
    source column's value times the edge's weight. -/
def msg {C : Nat} (hC : 0 < C) (X : A2 2048 C) (w : A1 32768) (src dst : I1 32768) (k : Nat) (b : Fin 2048) : EReal :=
  ∑ e : Fin 32768, if (dst (ix1 e)).toNat = k then X (ix2 b (clampFin C hC (src (ix1 e)))) * w (ix1 e) else 0

/-- The activation of node `keys i` for batch row `b`. -/
def act (obs : A2 2048 512) (prev : A2 2048 2048) (w_in w_rec : A1 32768) (bias : A1 2048)
    (src_in dst_in src_rec dst_rec : I1 32768) (keys : I1 64) (b : Fin 2048) (i : Fin 64) : EReal :=
  Ideal.tanh ((msg (by decide) obs w_in src_in dst_in (keys (ix1 i)).toNat b
      + msg (by decide) prev w_rec src_rec dst_rec (keys (ix1 i)).toNat b)
    + bias (ix1 (clampFin 2048 (by decide) (keys (ix1 i)))))

/-- The result array [2048 × 64]. -/
def G (obs : A2 2048 512) (prev : A2 2048 2048) (w_in w_rec : A1 32768) (bias : A1 2048)
    (src_in dst_in src_rec dst_rec : I1 32768) (keys : I1 64) : A2 2048 64 :=
  fun j => act obs prev w_in w_rec bias src_in dst_in src_rec dst_rec keys (j 0) (j 1)

/-- The kernel body's output entry (i, b) from the arrays its windows stage: the gathered input-adjacency rows `a0` against
    `obs`, the gathered recurrent-adjacency rows `a2` against `prev`, plus the gathered bias column `a4`, through tanh. -/
def outAt (a0 : A2 64 512) (a1 : A2 2048 512) (a2 : A2 64 2048) (a3 : A2 2048 2048) (a4 : A2 64 1) (i : Fin 64) (b : Fin 2048) : EReal :=
  Ideal.tanh ((∑ f : Fin 512, a0 (ix2 i f) * a1 (ix2 b f)) + (∑ k : Fin 2048, a2 (ix2 i k) * a3 (ix2 b k)) + a4 (ix2 i 0))

/-- The domain: float entries finite, indices inside the arrays they index. -/
structure Dom (obs : A2 2048 512) (prev : A2 2048 2048) (w_in w_rec : A1 32768) (bias : A1 2048)
    (src_in dst_in src_rec dst_rec : I1 32768) (keys : I1 64) : Prop where
  obs_fin : ∀ i, ∃ r : ℝ, obs i = (r : EReal)
  prev_fin : ∀ i, ∃ r : ℝ, prev i = (r : EReal)
  w_in_fin : ∀ i, ∃ r : ℝ, w_in i = (r : EReal)
  w_rec_fin : ∀ i, ∃ r : ℝ, w_rec i = (r : EReal)
  bias_fin : ∀ i, ∃ r : ℝ, bias i = (r : EReal)
  src_in_lt : ∀ i, (src_in i).toNat < 512
  dst_in_lt : ∀ i, (dst_in i).toNat < 2048
  src_rec_lt : ∀ i, (src_rec i).toNat < 2048
  dst_rec_lt : ∀ i, (dst_rec i).toNat < 2048
  keys_lt : ∀ i, (keys i).toNat < 2048

end Cert.Spec

end
-- ==== Proof.PreFacts.lean ====
/-
  The printed precondition, decoded: where it holds, every float argument is finite entry by entry and every index argument
  lies inside the array it indexes.
-/
import proofs.«422908_j73521250173176_3_alg».proof.Pre_finite_inputs
import proofs.«422908_j73521250173176_3_alg».proof.Proof.Gen.Pre_finite_inputs
import proofs.«422908_j73521250173176_3_alg».proof.Proof.Spec
import Idealize.ShloMosaic.Lib.ReduceAll
import Idealize.ShloMosaic.Lib.StableHlo.Predicate

noncomputable section

namespace Cert.PreFacts

open Idealize.ShloMosaic Cert.Pre_finite_inputs

/-- The scalar shape has one index. -/
private instance : Subsingleton S_.Idx := ⟨fun a b => funext fun d => d.elim0⟩

/-- An extended real whose absolute value is below +∞ is a real: ⊥ and ⊤ both have absolute value ⊤. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- A word in [0, n) signed is below n unsigned (n below 2³¹). -/
private theorem toNat_lt_of_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz] at h0
  have hw := w.isLt
  rw [BitVec.toInt_eq_toNat_cond] at h0 h1
  split at h0 <;> omega

/-- Where the conjunction over all entries of |x i| < +∞ is 1, every entry of the float array is a real. -/
private theorem fin_of_all {s : Shape} {axes : List (Fin s.rank)} (x : FVec Ideal s .f32)
    (hb : S_.BroadcastsInDim s (![] : Fin 0 → Fin s.rank)) (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) : ∀ i, ∃ r : ℝ, x i = (r : EReal) := fun i =>
  real_of_abs_lt_inf (x i) (Host.reduce_andi_all _ _ hr h0 j e i)

/-- Where the conjunction over all entries of 0 ≤ x i ∧ x i < n (signed) is 1, every entry of the index array is below n. -/
private theorem range_of_all {s : Shape} {axes : List (Fin s.rank)} (x : IVec s 32) (n : Nat) (hn : n < 2 ^ 31)
    (hb : S_.BroadcastsInDim s (![] : Fin 0 → Fin s.rank)) (hr : s.ReducesTo axes S_) (h0 : 0 < S_.numel) (j : S_.Idx)
    (e : Host.reduce IntOp.andi (andi (cmpi .sge x (broadcastInDim s ![] hb (constantI S_ 32 0#32)))
        (cmpi .slt x (broadcastInDim s ![] hb (constantI S_ 32 (BitVec.ofNat 32 n))))) (constantI S_ 1 1#1) hr h0 j = 1#1) :
    ∀ i, (x i).toNat < n := fun i => by
  obtain ⟨ha, hc⟩ := IntOp.andi_eq_one.1 (Host.reduce_andi_all _ _ hr h0 j e i)
  exact toNat_lt_of_range (x i) n hn ha hc

theorem dom_of_pre (x0 : FVec Ideal S2048x512 .f32) (x1 : FVec Ideal S2048x2048 .f32) (x2 x3 : FVec Ideal S32768 .f32)
    (x4 : FVec Ideal S2048 .f32) (x5 x6 x7 x8 : IVec S32768 32) (x9 : IVec S64 32)
    (h : Cert.Pre_finite_inputs.fn (F := Ideal) x0 x1 x2 x3 x4 x5 x6 x7 x8 x9 = fun _ => 1#1) :
    Cert.Spec.Dom x0 x1 x2 x3 x4 x5 x6 x7 x8 x9 := by
  have h0 := congrFun h ValueIdx.ix0
  dsimp only [fn, fn_part1, fn_part2, fn_part3] at h0
  -- the scalar conjunction of the ten parts, the last part first
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact
    { obs_fin := fin_of_all x0 _ _ _ _ h0
      prev_fin := fin_of_all x1 _ _ _ _ h1
      w_in_fin := fin_of_all x2 _ _ _ _ h2
      w_rec_fin := fin_of_all x3 _ _ _ _ h3
      bias_fin := fin_of_all x4 _ _ _ _ h4
      src_in_lt := range_of_all x5 512 (by decide) _ _ _ _ h5
      dst_in_lt := range_of_all x6 2048 (by decide) _ _ _ _ h6
      src_rec_lt := range_of_all x7 2048 (by decide) _ _ _ _ h7
      dst_rec_lt := range_of_all x8 2048 (by decide) _ _ _ _ h8
      keys_lt := range_of_all x9 2048 (by decide) _ _ _ _ h9 }

end Cert.PreFacts

end
-- ==== Proof.LibScatterAdd.lean ====
/-
  The host's accumulating float scatter at the exact values, read at an index. Whole rows (`segment_sum`,
  `x.at[idx].add(rows)`): entry (r, b) is the operand's plus the sum, over the updates e whose start index is r, of update
  (e, b). Scalars at index pairs (`x.at[rows, cols].add(v)`): entry (r, f) is the operand's plus the sum of the updates whose
  pair is (r, f). Starts are read signed and not clamped: an update that lands outside the operand adds nothing.
-/
import Idealize.ShloMosaic.Lib.ValueIdx
import Idealize.ShloMosaic.PureOps.Ideal

noncomputable section

namespace Cert.Lib.ScatterGather

open Idealize.ShloMosaic Idealize.ShloMosaic.ValueIdx

/-- An update index lands at operand index `i` exactly when, on every operand axis, its start plus its window coordinate is
    `i`'s coordinate: the in-range condition is then `i`'s own bound. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      rw [← hi]
      have := h a
      show _ = ((Int.toNat _ : Nat) : Int)
      omega
    · intro hi
      funext a
      apply Fin.ext
      have := hi a
      have := h a
      show Int.toNat _ = _
      omega
  · rename_i h
    constructor
    · intro hc; cases hc
    · intro hi
      exfalso
      apply h
      intro a
      have := hi a
      have := (i a).isLt
      constructor <;> omega

/-- Every entry of a one-element list is its element. -/
private theorem getElem_of_eq_singleton {α : Type} (l : List α) (a : α) (hl : l = [a]) (k : Nat) (h : k < l.length) :
    l[k]'h = a := by
  subst hl
  have : k = 0 := by simpa using h
  subst this; rfl

section Rows
variable {N B E : Nat} (d : ScatterDims ⟨2, ![N, B]⟩ ⟨2, ![E, 1]⟩ ⟨2, ![E, B]⟩)
    (hwin : d.updateWindowDims = [1]) (hins : d.insertedWindowDims = [0]) (hsd : d.scatterDimsToOperandDims = [0])
    (hivd : d.indexVectorDim = 1)
include hwin hins hsd hivd

/-- Whole rows: on operand axis 0 the start of update (e, b') is the scatter index `idx[e, 0]`, read signed. -/
private theorem rows_start0 (idx : IVec ⟨2, ![E, 1]⟩ 32) (e : Fin E) (b' : Fin B) :
    d.start (ix2 e b') idx 0 = (idx (ix2 e 0)).toInt := by
  obtain ⟨uw, iw, sd, iv, wf⟩ := d
  simp only at hwin hins hsd hivd
  subst hwin hins hsd hivd
  unfold ScatterDims.start
  rw [dif_pos (List.mem_singleton.mpr rfl)]
  congr 2
  funext b
  apply Fin.ext
  match b with
  | ⟨0, _⟩ =>
    unfold ScatterDims.siIdx
    rw [dif_neg (by show ¬ (0 : Nat) = 1; decide)]
    unfold ScatterDims.siCoord
    simp only [Fin.val_cast]
    have key : ∀ X : Fin 2, X = 0 → ((ix2 e b' : (⟨2, ![E, B]⟩ : Shape).Idx) X).val = e.val := by
      intro X hX; subst hX; rfl
    exact key _ (getElem_of_eq_singleton _ _ (by rfl) _ _)
  | ⟨1, _⟩ =>
    unfold ScatterDims.siIdx
    rw [dif_pos rfl]
    show List.idxOf (0 : Fin 2) [0] = 0
    rfl

/-- Whole rows: operand axis 1 is not named by the start-index map, its start is 0. -/
private theorem rows_start1 (idx : IVec ⟨2, ![E, 1]⟩ 32) (e : Fin E) (b' : Fin B) :
    d.start (ix2 e b') idx 1 = 0 := by
  obtain ⟨uw, iw, sd, iv, wf⟩ := d
  simp only at hwin hins hsd hivd
  subst hwin hins hsd hivd
  unfold ScatterDims.start
  rw [dif_neg (by decide : (1 : Fin 2) ∉ [(0 : Fin 2)])]

/-- Whole rows: operand axis 0 is an inserted window axis, its window coordinate is 0. -/
private theorem rows_window0 (e : Fin E) (b' : Fin B) :
    d.window (ix2 e b') 0 = 0 := by
  obtain ⟨uw, iw, sd, iv, wf⟩ := d
  simp only at hwin hins hsd hivd
  subst hwin hins hsd hivd
  unfold ScatterDims.window
  rw [dif_neg (by show (0 : Fin 2) ∉ (List.finRange 2).filter (· ∉ [(0 : Fin 2)]); decide)]

/-- Whole rows: on operand axis 1 the window coordinate of update (e, b') is b'. -/
private theorem rows_window1 (e : Fin E) (b' : Fin B) :
    d.window (ix2 e b') 1 = b'.val := by
  obtain ⟨uw, iw, sd, iv, wf⟩ := d
  simp only at hwin hins hsd hivd
  subst hwin hins hsd hivd
  unfold ScatterDims.window
  rw [dif_pos (by show (1 : Fin 2) ∈ (List.finRange 2).filter (· ∉ [(0 : Fin 2)]); decide)]
  have key : ∀ X : Fin 2, X = 1 → ((ix2 e b' : (⟨2, ![E, B]⟩ : Shape).Idx) X).val = b'.val := by
    intro X hX; subst hX; rfl
  exact key _ (getElem_of_eq_singleton _ _ rfl _ _)

/-- Whole rows: update (e, b') lands at (r, b) exactly when its start index is r and b' = b. -/
private theorem rows_resultIdx_iff (idx : IVec ⟨2, ![E, 1]⟩ 32) (e : Fin E) (b' : Fin B) (r : Fin N) (b : Fin B) :
    d.resultIdx? (ix2 e b') idx = some (ix2 r b) ↔ (idx (ix2 e 0)).toInt = (r.val : Int) ∧ b' = b := by
  rw [resultIdx?_eq_some_iff]
  constructor
  · intro h
    have h0 : d.start (ix2 e b') idx 0 + (d.window (ix2 e b') 0 : Int) = (r.val : Int) := h 0
    have h1 : d.start (ix2 e b') idx 1 + (d.window (ix2 e b') 1 : Int) = (b.val : Int) := h 1
    rw [rows_start0 d hwin hins hsd hivd, rows_window0 d hwin hins hsd hivd] at h0
    rw [rows_start1 d hwin hins hsd hivd, rows_window1 d hwin hins hsd hivd] at h1
    exact ⟨by omega, Fin.ext (by omega)⟩
  · rintro ⟨h0, h1⟩ a
    match a with
    | ⟨0, _⟩ =>
      show d.start (ix2 e b') idx 0 + (d.window (ix2 e b') 0 : Int) = (r.val : Int)
      rw [rows_start0 d hwin hins hsd hivd, rows_window0 d hwin hins hsd hivd]
      omega
    | ⟨1, _⟩ =>
      show d.start (ix2 e b') idx 1 + (d.window (ix2 e b') 1 : Int) = (b.val : Int)
      rw [rows_start1 d hwin hins hsd hivd, rows_window1 d hwin hins hsd hivd, h1]
      omega

end Rows

/-- A float scatter-add of whole rows at `Ideal`: entry (r, b) is the operand's plus the sum, over the updates whose start
    index (read signed) is `r`, of update (e, b). -/
theorem scatterAdd_rows_apply {N B E : Nat} (d : ScatterDims ⟨2, ![N, B]⟩ ⟨2, ![E, 1]⟩ ⟨2, ![E, B]⟩)
    (hwin : d.updateWindowDims = [1]) (hins : d.insertedWindowDims = [0]) (hsd : d.scatterDimsToOperandDims = [0])
    (hivd : d.indexVectorDim = 1)
    (x : (⟨2, ![N, B]⟩ : Shape).Idx → EReal) (idx : IVec ⟨2, ![E, 1]⟩ 32) (upd : (⟨2, ![E, B]⟩ : Shape).Idx → EReal)
    (r : Fin N) (b : Fin B) :
    Ideal.hostScatterAdd d x idx upd (ix2 r b)
      = x (ix2 r b) + ∑ e : Fin E, if (idx (ix2 e 0)).toInt = (r.val : Int) then upd (ix2 e b) else 0 := by
  classical
  unfold Ideal.hostScatterAdd
  congr 1
  rw [Finset.sum_filter, sum_idx2]
  refine Finset.sum_congr rfl fun e _ => ?_
  simp only [rows_resultIdx_iff d hwin hins hsd hivd]
  by_cases hP : (idx (ix2 e 0)).toInt = (r.val : Int)
  · simp only [hP, true_and, if_true]
    rw [Finset.sum_ite_eq']
    simp
  · simp [hP]

/-- A rank-1 index set is its coordinate range. -/
private def idx1Equiv {n : Nat} : Fin n ≃ (⟨1, ![n]⟩ : Shape).Idx where
  toFun := ix1
  invFun i := i 0
  left_inv _ := rfl
  right_inv i := (eq_ix1 i).symm

section Pairs
variable {R C E : Nat} (d : ScatterDims ⟨2, ![R, C]⟩ ⟨2, ![E, 2]⟩ ⟨1, ![E]⟩)
    (hwin : d.updateWindowDims = []) (hins : d.insertedWindowDims = [0, 1]) (hsd : d.scatterDimsToOperandDims = [0, 1])
    (hivd : d.indexVectorDim = 1)
include hwin hins hsd hivd

/-- Index pairs: on operand axis 0 the start of update e is `idx[e, 0]`, read signed. -/
private theorem pairs_start0 (idx : IVec ⟨2, ![E, 2]⟩ 32) (e : Fin E) :
    d.start (ix1 e) idx 0 = (idx (ix2 e 0)).toInt := by
  obtain ⟨uw, iw, sd, iv, wf⟩ := d
  simp only at hwin hins hsd hivd
  subst hwin hins hsd hivd
  unfold ScatterDims.start
  rw [dif_pos (by decide : (0 : Fin 2) ∈ [(0 : Fin 2), 1])]
  congr 2
  funext b
  apply Fin.ext
  match b with
  | ⟨0, _⟩ =>
    unfold ScatterDims.siIdx
    rw [dif_neg (by show ¬ (0 : Nat) = 1; decide)]
    unfold ScatterDims.siCoord
    simp only [Fin.val_cast]
    have key : ∀ X : Fin 1, ((ix1 e : (⟨1, ![E]⟩ : Shape).Idx) X).val = e.val := by
      intro X; have hX : X = 0 := Subsingleton.elim _ _; subst hX; rfl
    exact key _
  | ⟨1, _⟩ =>
    unfold ScatterDims.siIdx
    rw [dif_pos rfl]
    show List.idxOf (0 : Fin 2) [0, 1] = 0
    rfl

/-- Index pairs: on operand axis 1 the start of update e is `idx[e, 1]`, read signed. -/
private theorem pairs_start1 (idx : IVec ⟨2, ![E, 2]⟩ 32) (e : Fin E) :
    d.start (ix1 e) idx 1 = (idx (ix2 e 1)).toInt := by
  obtain ⟨uw, iw, sd, iv, wf⟩ := d
  simp only at hwin hins hsd hivd
  subst hwin hins hsd hivd
  unfold ScatterDims.start
  rw [dif_pos (by decide : (1 : Fin 2) ∈ [(0 : Fin 2), 1])]
  congr 2
  funext b
  apply Fin.ext
  match b with
  | ⟨0, _⟩ =>
    unfold ScatterDims.siIdx
    rw [dif_neg (by show ¬ (0 : Nat) = 1; decide)]
    unfold ScatterDims.siCoord
    simp only [Fin.val_cast]
    have key : ∀ X : Fin 1, ((ix1 e : (⟨1, ![E]⟩ : Shape).Idx) X).val = e.val := by
      intro X; have hX : X = 0 := Subsingleton.elim _ _; subst hX; rfl
    exact key _
  | ⟨1, _⟩ =>
    unfold ScatterDims.siIdx
    rw [dif_pos rfl]
    show List.idxOf (1 : Fin 2) [0, 1] = 1
    rfl

/-- Index pairs: both operand axes are inserted window axes, every window coordinate is 0. -/
private theorem pairs_window (e : Fin E) (a : Fin 2) :
    d.window (ix1 e) a = 0 := by
  obtain ⟨uw, iw, sd, iv, wf⟩ := d
  simp only at hwin hins hsd hivd
  subst hwin hins hsd hivd
  unfold ScatterDims.window
  have hk : (List.finRange 2).filter (· ∉ [(0 : Fin 2), 1]) = [] := by decide
  rw [dif_neg (by show a ∉ (List.finRange 2).filter (· ∉ [(0 : Fin 2), 1]); rw [hk]; exact List.not_mem_nil)]

/-- Index pairs: update e lands at (r, f) exactly when its pair of start indices is (r, f). -/
private theorem pairs_resultIdx_iff (idx : IVec ⟨2, ![E, 2]⟩ 32) (e : Fin E) (r : Fin R) (f : Fin C) :
    d.resultIdx? (ix1 e) idx = some (ix2 r f)
      ↔ (idx (ix2 e 0)).toInt = (r.val : Int) ∧ (idx (ix2 e 1)).toInt = (f.val : Int) := by
  rw [resultIdx?_eq_some_iff]
  constructor
  · intro h
    have h0 : d.start (ix1 e) idx 0 + (d.window (ix1 e) 0 : Int) = (r.val : Int) := h 0
    have h1 : d.start (ix1 e) idx 1 + (d.window (ix1 e) 1 : Int) = (f.val : Int) := h 1
    rw [pairs_start0 d hwin hins hsd hivd, pairs_window d hwin hins hsd hivd] at h0
    rw [pairs_start1 d hwin hins hsd hivd, pairs_window d hwin hins hsd hivd] at h1
    exact ⟨by omega, by omega⟩
  · rintro ⟨h0, h1⟩ a
    match a with
    | ⟨0, _⟩ =>
      show d.start (ix1 e) idx 0 + (d.window (ix1 e) 0 : Int) = (r.val : Int)
      rw [pairs_start0 d hwin hins hsd hivd, pairs_window d hwin hins hsd hivd]
      omega
    | ⟨1, _⟩ =>
      show d.start (ix1 e) idx 1 + (d.window (ix1 e) 1 : Int) = (f.val : Int)
      rw [pairs_start1 d hwin hins hsd hivd, pairs_window d hwin hins hsd hivd]
      omega

end Pairs

/-- A float scatter-add of scalars at index pairs at `Ideal`: entry (r, f) is the operand's plus the sum of the updates whose
    pair of start indices (read signed) is (r, f). -/
theorem scatterAdd_pairs_apply {R C E : Nat} (d : ScatterDims ⟨2, ![R, C]⟩ ⟨2, ![E, 2]⟩ ⟨1, ![E]⟩)
    (hwin : d.updateWindowDims = []) (hins : d.insertedWindowDims = [0, 1]) (hsd : d.scatterDimsToOperandDims = [0, 1])
    (hivd : d.indexVectorDim = 1)
    (x : (⟨2, ![R, C]⟩ : Shape).Idx → EReal) (idx : IVec ⟨2, ![E, 2]⟩ 32) (upd : (⟨1, ![E]⟩ : Shape).Idx → EReal)
    (r : Fin R) (f : Fin C) :
    Ideal.hostScatterAdd d x idx upd (ix2 r f)
      = x (ix2 r f) + ∑ e : Fin E,
          if (idx (ix2 e 0)).toInt = (r.val : Int) ∧ (idx (ix2 e 1)).toInt = (f.val : Int) then upd (ix1 e) else 0 := by
  classical
  unfold Ideal.hostScatterAdd
  congr 1
  rw [Finset.sum_filter, ← Equiv.sum_comp (idx1Equiv (n := E))]
  refine Finset.sum_congr rfl fun e _ => ?_
  show (if d.resultIdx? (ix1 e) idx = some (ix2 r f) then upd (ix1 e) else 0) = _
  simp only [pairs_resultIdx_iff d hwin hins hsd hivd]

end Cert.Lib.ScatterGather

end
-- ==== Proof.RefValue.lean ====
/-
  The reference program's result is `Spec.G` of its arguments, on the domain: its row takes read obs.T and prev.T at the edges'
  sources, the two segment sums gather the edges by destination, and the final column take picks the rows of the output keys.
-/
import proofs.«422908_j73521250173176_3_alg».proof.Proof.Gen.ReferenceIdeal.Read
import proofs.«422908_j73521250173176_3_alg».proof.Proof.Spec
import proofs.«422908_j73521250173176_3_alg».proof.Proof.LibGather
import proofs.«422908_j73521250173176_3_alg».proof.Proof.LibScatterAdd
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.Lib.ScatterGather

/-- On a word below 2³¹ the wrap of a negative index is the identity. -/
private theorem wrap_id (v n : BitVec 32) (hv : v.toNat < 2 ^ 31) :
    Scalar.select (IntOp.cmpi .slt v 0#32) (IntOp.addi v n) v = v := by
  have h0 : IntOp.cmpi .slt v 0#32 = 0#1 := by
    apply eq_zero_of_ne_one
    intro h1
    have := (StableHlo.Predicate.slt_iff_toNat hv (by decide)).mp h1
    simp at this
  rw [h0, select_zero]

private theorem v5_at (x5 : IVec S32768 32) (e : Fin 32768) (h : (x5 (ix1 e)).toNat < 2 ^ 31) :
    val_main_v5 (F := Ideal) x5 (ix1 e) = x5 (ix1 e) := by
  rw [val_main_v5_apply, val_main_v2_apply, val_main_v1_apply, val_main_c_apply]
  exact wrap_id _ _ h

private theorem v6_at (x5 : IVec S32768 32) (e : Fin 32768) (h : (x5 (ix1 e)).toNat < 2 ^ 31) :
    val_main_v6 (F := Ideal) x5 (ix2 e 0) = x5 (ix1 e) := by
  rw [val_main_v6_apply]
  have hi : idx_main_v6 (ix2 e (0 : Fin 1)) = ix1 e := by
    funext a; match a with | ⟨0, _⟩ => rfl
  rw [hi]
  exact v5_at x5 e h

/-- The input-side row take: edge e, batch row b reads obs at (b, clamp src e). -/
private theorem v7_at (x0 : FVec Ideal S2048x512 .f32) (x5 : IVec S32768 32) (e : Fin 32768) (b : Fin 2048)
    (h : (x5 (ix1 e)).toNat < 2 ^ 31) :
    val_main_v7 (F := Ideal) x0 x5 (ix2 e b) = x0 (ix2 b (clampFin 512 (by decide) (x5 (ix1 e)))) := by
  unfold val_main_v7
  rw [gather_rows_apply (N := 512) (C := 2048) (n := 32768) gather_S512x2048_S32768x1_S32768x2048_1_0_n_n_0_1_12048 rfl rfl rfl rfl rfl (by decide),
    v6_at x5 e h, val_main_v0_apply]
  congr 1
  funext a; match a with | ⟨0, _⟩ => rfl | ⟨1, _⟩ => rfl

private theorem v10_at (x0 : FVec Ideal S2048x512 .f32) (x2 : FVec Ideal S32768 .f32) (x5 : IVec S32768 32)
    (e : Fin 32768) (b : Fin 2048) (h : (x5 (ix1 e)).toNat < 2 ^ 31) :
    val_main_v10 (F := Ideal) x0 x2 x5 (ix2 e b)
      = x0 (ix2 b (clampFin 512 (by decide) (x5 (ix1 e)))) * x2 (ix1 e) := by
  rw [val_main_v10_apply, v7_at x0 x5 e b h, val_main_v9_apply, val_main_v8_apply]
  show _ * _ = _
  congr 2
  funext a; match a with | ⟨0, _⟩ => rfl

/-- The input-side segment sum: node r, batch row b collects the edges whose destination is r. -/
private theorem v24_at (x0 : FVec Ideal S2048x512 .f32) (x2 : FVec Ideal S32768 .f32) (x5 x6 : IVec S32768 32)
    (h5 : ∀ i, (x5 i).toNat < 512) (h6 : ∀ i, (x6 i).toNat < 2048) (r : Fin 2048) (b : Fin 2048) :
    val_main_v24 (F := Ideal) x0 x2 x5 x6 (ix2 r b)
      = Cert.Spec.msg (by decide) x0 x2 x5 x6 r.val b := by
  unfold val_main_v24
  show Ideal.hostScatterAdd scatter_S2048x2048_S32768x1_S32768x2048_1_0_0_1 _ _ _ _ = _
  rw [scatterAdd_rows_apply (N := 2048) (B := 2048) (E := 32768) scatter_S2048x2048_S32768x1_S32768x2048_1_0_0_1 rfl rfl rfl rfl,
    val_main_v22_apply, val_main_cst_apply]
  show Ideal.ofBits .f32 0x00000000#32 + _ = _
  rw [Ideal.ofBits_zero_f32, zero_add]
  unfold Cert.Spec.msg
  refine Finset.sum_congr rfl fun e _ => ?_
  have hi : idx_main_v23 (ix2 e (0 : Fin 1)) = ix1 e := by
    funext a; match a with | ⟨0, _⟩ => rfl
  rw [val_main_v23_apply, hi, toInt_of_lt _ (by have := h6 (ix1 e); omega),
    v10_at x0 x2 x5 e b (by have := h5 (ix1 e); omega)]
  simp only [Nat.cast_inj]

private theorem v16_at (x7 : IVec S32768 32) (e : Fin 32768) (h : (x7 (ix1 e)).toNat < 2 ^ 31) :
    val_main_v16 (F := Ideal) x7 (ix1 e) = x7 (ix1 e) := by
  rw [val_main_v16_apply, val_main_v13_apply, val_main_v12_apply, val_main_c_1_apply]
  exact wrap_id _ _ h

private theorem v17_at (x7 : IVec S32768 32) (e : Fin 32768) (h : (x7 (ix1 e)).toNat < 2 ^ 31) :
    val_main_v17 (F := Ideal) x7 (ix2 e 0) = x7 (ix1 e) := by
  rw [val_main_v17_apply]
  have hi : idx_main_v17 (ix2 e (0 : Fin 1)) = ix1 e := by
    funext a; match a with | ⟨0, _⟩ => rfl
  rw [hi]
  exact v16_at x7 e h

/-- The recurrent-side row take: edge e, batch row b reads prev at (b, clamp src e). -/
private theorem v18_at (x1 : FVec Ideal S2048x2048 .f32) (x7 : IVec S32768 32) (e : Fin 32768) (b : Fin 2048)
    (h : (x7 (ix1 e)).toNat < 2 ^ 31) :
    val_main_v18 (F := Ideal) x1 x7 (ix2 e b) = x1 (ix2 b (clampFin 2048 (by decide) (x7 (ix1 e)))) := by
  unfold val_main_v18
  rw [gather_rows_apply (N := 2048) (C := 2048) (n := 32768) gather_S2048x2048_S32768x1_S32768x2048_1_0_n_n_0_1_12048 rfl rfl rfl rfl rfl (by decide),
    v17_at x7 e h, val_main_v11_apply]
  congr 1
  funext a; match a with | ⟨0, _⟩ => rfl | ⟨1, _⟩ => rfl

private theorem v21_at (x1 : FVec Ideal S2048x2048 .f32) (x3 : FVec Ideal S32768 .f32) (x7 : IVec S32768 32)
    (e : Fin 32768) (b : Fin 2048) (h : (x7 (ix1 e)).toNat < 2 ^ 31) :
    val_main_v21 (F := Ideal) x1 x3 x7 (ix2 e b)
      = x1 (ix2 b (clampFin 2048 (by decide) (x7 (ix1 e)))) * x3 (ix1 e) := by
  rw [val_main_v21_apply, v18_at x1 x7 e b h, val_main_v20_apply, val_main_v19_apply]
  show _ * _ = _
  congr 2
  funext a; match a with | ⟨0, _⟩ => rfl

/-- The recurrent-side segment sum: node r, batch row b collects the edges whose destination is r. -/
private theorem v27_at (x1 : FVec Ideal S2048x2048 .f32) (x3 : FVec Ideal S32768 .f32) (x7 x8 : IVec S32768 32)
    (h7 : ∀ i, (x7 i).toNat < 2048) (h8 : ∀ i, (x8 i).toNat < 2048) (r : Fin 2048) (b : Fin 2048) :
    val_main_v27 (F := Ideal) x1 x3 x7 x8 (ix2 r b)
      = Cert.Spec.msg (by decide) x1 x3 x7 x8 r.val b := by
  unfold val_main_v27
  show Ideal.hostScatterAdd scatter_S2048x2048_S32768x1_S32768x2048_1_0_0_1 _ _ _ _ = _
  rw [scatterAdd_rows_apply (N := 2048) (B := 2048) (E := 32768) scatter_S2048x2048_S32768x1_S32768x2048_1_0_0_1 rfl rfl rfl rfl,
    val_main_v25_apply, val_main_cst_3_apply]
  show Ideal.ofBits .f32 0x00000000#32 + _ = _
  rw [Ideal.ofBits_zero_f32, zero_add]
  unfold Cert.Spec.msg
  refine Finset.sum_congr rfl fun e _ => ?_
  have hi : idx_main_v26 (ix2 e (0 : Fin 1)) = ix1 e := by
    funext a; match a with | ⟨0, _⟩ => rfl
  rw [val_main_v26_apply, hi, toInt_of_lt _ (by have := h8 (ix1 e); omega),
    v21_at x1 x3 x7 e b (by have := h7 (ix1 e); omega)]
  simp only [Nat.cast_inj]

private theorem v38_at (x9 : IVec S64 32) (i : Fin 64) (h : (x9 (ix1 i)).toNat < 2 ^ 31) :
    val_main_v38 (F := Ideal) x9 (ix1 i) = x9 (ix1 i) := by
  rw [val_main_v38_apply, val_main_v35_apply, val_main_v34_apply, val_main_c_4_apply]
  exact wrap_id _ _ h

private theorem v39_at (x9 : IVec S64 32) (i : Fin 64) (h : (x9 (ix1 i)).toNat < 2 ^ 31) :
    val_main_v39 (F := Ideal) x9 (ix2 i 0) = x9 (ix1 i) := by
  rw [val_main_v39_apply]
  have hi : idx_main_v39 (ix2 i (0 : Fin 1)) = ix1 i := by
    funext a; match a with | ⟨0, _⟩ => rfl
  rw [hi]
  exact v38_at x9 i h

/-- The activation of node r for batch row b, before the final column take (stored transposed). -/
private theorem v33_at (x0 : FVec Ideal S2048x512 .f32) (x1 : FVec Ideal S2048x2048 .f32) (x2 x3 : FVec Ideal S32768 .f32)
    (x4 : FVec Ideal S2048 .f32) (x5 x6 x7 x8 : IVec S32768 32)
    (h5 : ∀ i, (x5 i).toNat < 512) (h6 : ∀ i, (x6 i).toNat < 2048)
    (h7 : ∀ i, (x7 i).toNat < 2048) (h8 : ∀ i, (x8 i).toNat < 2048) (b r : Fin 2048) :
    val_main_v33 (F := Ideal) x0 x1 x2 x3 x4 x5 x6 x7 x8 (ix2 b r)
      = Ideal.tanh ((Cert.Spec.msg (by decide) x0 x2 x5 x6 r.val b + Cert.Spec.msg (by decide) x1 x3 x7 x8 r.val b)
          + x4 (ix1 r)) := by
  have hi : idx_main_v33 (ix2 b r) = ix2 r b := by
    funext a; match a with | ⟨0, _⟩ => rfl | ⟨1, _⟩ => rfl
  rw [val_main_v33_apply, hi, val_main_v32_apply, Ideal.hostUnary_tanh_def, val_main_v31_apply, val_main_v28_apply,
    v24_at x0 x2 x5 x6 h5 h6 r b, v27_at x1 x3 x7 x8 h7 h8 r b, val_main_v30_apply, val_main_v29_apply]
  show Ideal.tanh ((_ + _) + _) = _
  congr 3
  funext a; match a with | ⟨0, _⟩ => rfl

theorem ref_eq (x0 : FVec Ideal S2048x512 .f32) (x1 : FVec Ideal S2048x2048 .f32) (x2 x3 : FVec Ideal S32768 .f32)
    (x4 : FVec Ideal S2048 .f32) (x5 x6 x7 x8 : IVec S32768 32) (x9 : IVec S64 32)
    (h : Cert.Spec.Dom x0 x1 x2 x3 x4 x5 x6 x7 x8 x9) :
    val_main_v40 (F := Ideal) x0 x1 x2 x3 x4 x5 x6 x7 x8 x9 = Cert.Spec.G x0 x1 x2 x3 x4 x5 x6 x7 x8 x9 := by
  funext j
  obtain ⟨b, i, rfl⟩ : ∃ (b : Fin 2048) (i : Fin 64), j = ix2 b i := ⟨j 0, j 1, eq_ix2 j⟩
  have hk : (x9 (ix1 i)).toNat < 2048 := h.keys_lt (ix1 i)
  unfold val_main_v40
  rw [gather_cols_apply (B := 2048) (N := 2048) (n := 64) gather_S2048x2048_S64x1_S2048x64_0_1_n_n_1_1_20481 rfl rfl rfl rfl rfl (by decide),
    v39_at x9 i (by omega),
    v33_at x0 x1 x2 x3 x4 x5 x6 x7 x8 h.src_in_lt h.dst_in_lt h.src_rec_lt h.dst_rec_lt,
    clampFin_val_of_lt 2048 (by decide) (by decide) _ hk]
  rfl

end Cert.ReferenceIdeal.RefValue

end
-- ==== Proof.KernelBody.lean ====
/-
  The kernel body's one store, read at an entry: from the blocks it loads — the gathered input-adjacency rows x0 [64 × 512], a
  block x1 of 512 batch rows of obs, the gathered recurrent-adjacency rows x2 [64 × 2048], the same batch rows x3 of prev, and
  the gathered bias column x4 — entry (i, b) is tanh of  ∑_f x0[i,f]·x1[b,f] + ∑_k x2[i,k]·x3[b,k] + x4[i,0].  At the exact
  values the casts to bf16 are the identity and each matmul into a zero accumulator is the plain sum over its one contracted axis.
-/
import proofs.«422908_j73521250173176_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- A [64, 1] column broadcast along the batch axis to [64, 512] reads, at (i, b), the column's entry (i, 0). -/
private theorem bcast_col_apply {α : Type} (v : S64x1.Idx → α) (h : S64x1.Broadcasts S64x512) (i : Fin 64) (b : Fin 512) :
    broadcastTo S64x512 v h (ix2 i b) = v (ix2 i 0) := by
  refine broadcastTo_apply v h (ix2 i b) (ix2 i 0) fun a => ?_
  match a with
  | ⟨0, _⟩ => rfl
  | ⟨1, _⟩ => rfl

/-! ## The operand indices of the two products, axis by axis

Both products contract axis 1 of the left operand with axis 1 of the right operand: at output index j = (i, b) and contraction
position k the left operand is read at (i, k) and the right operand at (b, k). -/

/-- First product, left operand, axis 0: the output's row. -/
private theorem lhsA_0 (j : S64x512.Idx) (k : dot_S64x512_S512x512_S64x512_1_1_0_0_n_n.contr.Idx) :
    (dot_S64x512_S512x512_S64x512_1_1_0_0_n_n.lhsIdx j k 0 : ℕ) = j 0 := by
  simp [DotDims.lhsIdx, dot_S64x512_S512x512_S64x512_1_1_0_0_n_n]; rfl

/-- First product, left operand, axis 1: the contraction position. -/
private theorem lhsA_1 (j : S64x512.Idx) (k : dot_S64x512_S512x512_S64x512_1_1_0_0_n_n.contr.Idx) :
    (dot_S64x512_S512x512_S64x512_1_1_0_0_n_n.lhsIdx j k 1 : ℕ) = k ⟨0, by decide⟩ :=
  dot_S64x512_S512x512_S64x512_1_1_0_0_n_n.lhsIdx_val_of_single rfl j k

/-- First product, right operand, axis 0: the output's column. -/
private theorem rhsA_0 (j : S64x512.Idx) (k : dot_S64x512_S512x512_S64x512_1_1_0_0_n_n.contr.Idx) :
    (dot_S64x512_S512x512_S64x512_1_1_0_0_n_n.rhsIdx j k 0 : ℕ) = j 1 := by
  simp [DotDims.rhsIdx, dot_S64x512_S512x512_S64x512_1_1_0_0_n_n]; rfl

/-- First product, right operand, axis 1: the contraction position. -/
private theorem rhsA_1 (j : S64x512.Idx) (k : dot_S64x512_S512x512_S64x512_1_1_0_0_n_n.contr.Idx) :
    (dot_S64x512_S512x512_S64x512_1_1_0_0_n_n.rhsIdx j k 1 : ℕ) = k ⟨0, by decide⟩ :=
  dot_S64x512_S512x512_S64x512_1_1_0_0_n_n.rhsIdx_val_of_single rfl j k

/-- Second product, left operand, axis 0: the output's row. -/
private theorem lhsB_0 (j : S64x512.Idx) (k : dot_S64x2048_S512x2048_S64x512_1_1_0_0_n_n.contr.Idx) :
    (dot_S64x2048_S512x2048_S64x512_1_1_0_0_n_n.lhsIdx j k 0 : ℕ) = j 0 := by
  simp [DotDims.lhsIdx, dot_S64x2048_S512x2048_S64x512_1_1_0_0_n_n]; rfl

/-- Second product, left operand, axis 1: the contraction position. -/
private theorem lhsB_1 (j : S64x512.Idx) (k : dot_S64x2048_S512x2048_S64x512_1_1_0_0_n_n.contr.Idx) :
    (dot_S64x2048_S512x2048_S64x512_1_1_0_0_n_n.lhsIdx j k 1 : ℕ) = k ⟨0, by decide⟩ :=
  dot_S64x2048_S512x2048_S64x512_1_1_0_0_n_n.lhsIdx_val_of_single rfl j k

/-- Second product, right operand, axis 0: the output's column. -/
private theorem rhsB_0 (j : S64x512.Idx) (k : dot_S64x2048_S512x2048_S64x512_1_1_0_0_n_n.contr.Idx) :
    (dot_S64x2048_S512x2048_S64x512_1_1_0_0_n_n.rhsIdx j k 0 : ℕ) = j 1 := by
  simp [DotDims.rhsIdx, dot_S64x2048_S512x2048_S64x512_1_1_0_0_n_n]; rfl

/-- Second product, right operand, axis 1: the contraction position. -/
private theorem rhsB_1 (j : S64x512.Idx) (k : dot_S64x2048_S512x2048_S64x512_1_1_0_0_n_n.contr.Idx) :
    (dot_S64x2048_S512x2048_S64x512_1_1_0_0_n_n.rhsIdx j k 1 : ℕ) = k ⟨0, by decide⟩ :=
  dot_S64x2048_S512x2048_S64x512_1_1_0_0_n_n.rhsIdx_val_of_single rfl j k

/-! ## Each product into the zero accumulator is A · Bᵀ -/

/-- The [64, 512] by [512, 512] product: entry (i, b) is ∑_c L[i,c] · R[b,c]. -/
private theorem matmulA_apply (L : FVec Ideal S64x512 .bf16) (R : FVec Ideal S512x512 .bf16) (i : Fin 64) (b : Fin 512) :
    matmul (F := Ideal) dot_S64x512_S512x512_S64x512_1_1_0_0_n_n none L R (constant (F := Ideal) S64x512 .f32 0x00000000#32) (ix2 i b)
      = ∑ c : Fin 512, L (ix2 i c) * R (ix2 b c) := by
  show FloatOps.matmul dot_S64x512_S512x512_S64x512_1_1_0_0_n_n none L R _ (ix2 i b) = _
  rw [Ideal.matmul_constant_zero_apply,
    ← Equiv.sum_comp (contrEquiv1 dot_S64x512_S512x512_S64x512_1_1_0_0_n_n 512 rfl rfl).symm]
  refine Finset.sum_congr rfl fun c _ => ?_
  have hk := contrEquiv1_symm_val dot_S64x512_S512x512_S64x512_1_1_0_0_n_n 512 rfl rfl c
  have l : dot_S64x512_S512x512_S64x512_1_1_0_0_n_n.lhsIdx (ix2 i b) ((contrEquiv1 _ 512 rfl rfl).symm c) = ix2 i c := by
    funext ax; apply Fin.ext
    match ax with
    | ⟨0, _⟩ => exact lhsA_0 _ _
    | ⟨1, _⟩ => exact (lhsA_1 _ _).trans hk
  have r : dot_S64x512_S512x512_S64x512_1_1_0_0_n_n.rhsIdx (ix2 i b) ((contrEquiv1 _ 512 rfl rfl).symm c) = ix2 b c := by
    funext ax; apply Fin.ext
    match ax with
    | ⟨0, _⟩ => exact rhsA_0 _ _
    | ⟨1, _⟩ => exact (rhsA_1 _ _).trans hk
  rw [l, r]

/-- The [64, 2048] by [512, 2048] product: entry (i, b) is ∑_c L[i,c] · R[b,c]. -/
private theorem matmulB_apply (L : FVec Ideal S64x2048 .bf16) (R : FVec Ideal S512x2048 .bf16) (i : Fin 64) (b : Fin 512) :
    matmul (F := Ideal) dot_S64x2048_S512x2048_S64x512_1_1_0_0_n_n none L R (constant (F := Ideal) S64x512 .f32 0x00000000#32) (ix2 i b)
      = ∑ c : Fin 2048, L (ix2 i c) * R (ix2 b c) := by
  show FloatOps.matmul dot_S64x2048_S512x2048_S64x512_1_1_0_0_n_n none L R _ (ix2 i b) = _
  rw [Ideal.matmul_constant_zero_apply,
    ← Equiv.sum_comp (contrEquiv1 dot_S64x2048_S512x2048_S64x512_1_1_0_0_n_n 2048 rfl rfl).symm]
  refine Finset.sum_congr rfl fun c _ => ?_
  have hk := contrEquiv1_symm_val dot_S64x2048_S512x2048_S64x512_1_1_0_0_n_n 2048 rfl rfl c
  have l : dot_S64x2048_S512x2048_S64x512_1_1_0_0_n_n.lhsIdx (ix2 i b) ((contrEquiv1 _ 2048 rfl rfl).symm c) = ix2 i c := by
    funext ax; apply Fin.ext
    match ax with
    | ⟨0, _⟩ => exact lhsB_0 _ _
    | ⟨1, _⟩ => exact (lhsB_1 _ _).trans hk
  have r : dot_S64x2048_S512x2048_S64x512_1_1_0_0_n_n.rhsIdx (ix2 i b) ((contrEquiv1 _ 2048 rfl rfl).symm c) = ix2 b c := by
    funext ax; apply Fin.ext
    match ax with
    | ⟨0, _⟩ => exact rhsB_0 _ _
    | ⟨1, _⟩ => exact (rhsB_1 _ _).trans hk
  rw [l, r]

/-! ## The stored value at an entry -/

/-- Entry (i, b) of the stored block: the same-shape casts are the identity, the two products are the plain sums, the bias
    column is read at its row, and narrowing to bf16 changes no exact value. -/
theorem pay_apply (x1 : FVec Ideal S512x512 .f32) (x3 : FVec Ideal S512x2048 .f32) (x0 : FVec Ideal S64x512 .bf16)
    (x2 : FVec Ideal S64x2048 .bf16) (x4 : FVec Ideal S64x1 .f32) (i : Fin 64) (b : Fin 512) :
    k0_pay1 (F := Ideal) x1 x3 x0 x2 x4 (ix2 i b)
      = Ideal.tanh ((∑ f : Fin 512, x0 (ix2 i f) * x1 (ix2 b f)) + (∑ k : Fin 2048, x2 (ix2 i k) * x3 (ix2 b k)) + x4 (ix2 i 0)) := by
  unfold k0_pay1
  show Ideal.tanh _ = _
  rw [addf_apply, addf_apply, bcast_col_apply, shapeCast_self, shapeCast_self, shapeCast_self, matmulA_apply, matmulB_apply]
  rfl

end Cert.KernelIdeal.Body

end
-- ==== Proof.KernelValue.lean ====
/-
  The kernel program's result as a function of the arrays its one region finds. Grid point t (of 4) stages batch rows
  [512 t, 512 t + 512) of obs and prev and the whole of the three gathered arrays, and writes back columns [512 t, 512 t + 512)
  of the [64 × 2048] output; the four blocks tile it, so the output array is, entry by entry, `Spec.outAt` of the five arrays;
  the transpose after the region lays it out [2048 × 64].
-/
import proofs.«422908_j73521250173176_3_alg».proof.Proof.Gen.KernelIdeal.Frame
import proofs.«422908_j73521250173176_3_alg».proof.Proof.KernelBody
import proofs.«422908_j73521250173176_3_alg».proof.Proof.Spec
import Idealize.ShloMosaic.Lib.Pipeline.Value
import Idealize.ShloMosaic.Lib.StableHlo.Run

noncomputable section

namespace Cert.KernelIdeal.KValue

open Idealize.ShloMosaic Idealize.ShloMosaic.TcCoe Idealize.ShloMosaic.ValueIdx Idealize.SL.Sem Cert.KernelIdeal Cert.KernelIdeal.Gen

/-- The program's result [2048 × 64] on core `c`: entry (b, i) is the body's entry (i, b) of the arrays the region finds. -/
def kernelOut (m : (ℓ : Loc nD τ sig) → Buf (Elt Ideal) ℓ) (c : Dev nD) : FVec Ideal S2048x64 .f32 :=
  fun j => Cert.Spec.outAt (V m c main_v67) (V m c main_arg0) (V m c main_v75) (V m c main_arg1) (V m c main_v83) (j 1) (j 0)

section Value

variable (m : (ℓ : Loc nD τ sig) → Buf (Elt Ideal) ℓ)

private theorem hz : (![0, 0] : Fin 2 → Nat) = fun _ => 0 := funext fun a => by fin_cases a <;> rfl

/-- The block indices of the six windows at grid point t, decided over the four points. -/
private theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val ∧ t.val < 4 :=
  (by decide +kernel : ∀ t : Fin grid0.N, _)

private abbrev wIn (c : Dev nD) : FVec Ideal S64x512 .bf16 := V m c main_v67
private abbrev obsArr (c : Dev nD) : FVec Ideal S2048x512 .f32 := V m c main_arg0
private abbrev wRec (c : Dev nD) : FVec Ideal S64x2048 .bf16 := V m c main_v75
private abbrev prevArr (c : Dev nD) : FVec Ideal S2048x2048 .f32 := V m c main_arg1
private abbrev biasCol (c : Dev nD) : FVec Ideal S64x1 .f32 := V m c main_v83

private abbrev wInBlk (c : Dev nD) (t : Fin cfg0.N) : FVec Ideal S64x512 .bf16 := iblk m c 0 t
private abbrev obsBlk (c : Dev nD) (t : Fin cfg0.N) : FVec Ideal S512x512 .f32 := iblk m c 1 t
private abbrev wRecBlk (c : Dev nD) (t : Fin cfg0.N) : FVec Ideal S64x2048 .bf16 := iblk m c 2 t
private abbrev prevBlk (c : Dev nD) (t : Fin cfg0.N) : FVec Ideal S512x2048 .f32 := iblk m c 3 t
private abbrev biasBlk (c : Dev nD) (t : Fin cfg0.N) : FVec Ideal S64x1 .f32 := iblk m c 4 t

/-- The gathered input-adjacency block is the whole gathered array at every point. -/
private theorem wInBlk_apply (c : Dev nD) (t : Fin cfg0.N) (i : Fin 64) (f : Fin 512) :
    wInBlk m c t (ix2 i f) = wIn m c (ix2 i f) := by
  obtain ⟨e0, e1, -⟩ := idx_facts t
  unfold wInBlk iblk
  rw [View.read_apply]
  show V m c main_v67 _ = V m c main_v67 _
  congr 1
  funext a
  apply Fin.ext
  match a with
  | ⟨0, _⟩ => show win0_0.index t 0 * 64 + 1 * i.val = i.val; rw [e0]; omega
  | ⟨1, _⟩ => show win0_0.index t 1 * 512 + 1 * f.val = f.val; rw [e1]; omega

/-- The obs block at point t is batch rows 512 t … 512 t + 511 of obs. -/
private theorem obsBlk_apply (c : Dev nD) (t : Fin cfg0.N) (b f : Fin 512) (r : Fin 2048) (hr : r.val = 512 * t.val + b.val) :
    obsBlk m c t (ix2 b f) = obsArr m c (ix2 r f) := by
  obtain ⟨-, -, e0, e1, -⟩ := idx_facts t
  unfold obsBlk iblk
  rw [View.read_apply]
  show V m c main_arg0 _ = V m c main_arg0 _
  congr 1
  funext a
  apply Fin.ext
  match a with
  | ⟨0, _⟩ => show win0_1.index t 0 * 512 + 1 * b.val = r.val; rw [e0, hr]; omega
  | ⟨1, _⟩ => show win0_1.index t 1 * 512 + 1 * f.val = f.val; rw [e1]; omega

/-- The gathered recurrent-adjacency block is the whole gathered array at every point. -/
private theorem wRecBlk_apply (c : Dev nD) (t : Fin cfg0.N) (i : Fin 64) (k : Fin 2048) :
    wRecBlk m c t (ix2 i k) = wRec m c (ix2 i k) := by
  obtain ⟨-, -, -, -, e0, e1, -⟩ := idx_facts t
  unfold wRecBlk iblk
  rw [View.read_apply]
  show V m c main_v75 _ = V m c main_v75 _
  congr 1
  funext a
  apply Fin.ext
  match a with
  | ⟨0, _⟩ => show win0_2.index t 0 * 64 + 1 * i.val = i.val; rw [e0]; omega
  | ⟨1, _⟩ => show win0_2.index t 1 * 2048 + 1 * k.val = k.val; rw [e1]; omega

/-- The prev block at point t is batch rows 512 t … 512 t + 511 of prev. -/
private theorem prevBlk_apply (c : Dev nD) (t : Fin cfg0.N) (b : Fin 512) (k : Fin 2048) (r : Fin 2048) (hr : r.val = 512 * t.val + b.val) :
    prevBlk m c t (ix2 b k) = prevArr m c (ix2 r k) := by
  obtain ⟨-, -, -, -, -, -, e0, e1, -⟩ := idx_facts t
  unfold prevBlk iblk
  rw [View.read_apply]
  show V m c main_arg1 _ = V m c main_arg1 _
  congr 1
  funext a
  apply Fin.ext
  match a with
  | ⟨0, _⟩ => show win0_3.index t 0 * 512 + 1 * b.val = r.val; rw [e0, hr]; omega
  | ⟨1, _⟩ => show win0_3.index t 1 * 2048 + 1 * k.val = k.val; rw [e1]; omega

/-- The gathered bias column's block is the whole column at every point. -/
private theorem biasBlk_apply (c : Dev nD) (t : Fin cfg0.N) (i : Fin 64) :
    biasBlk m c t (ix2 i 0) = biasCol m c (ix2 i 0) := by
  obtain ⟨-, -, -, -, -, -, -, -, e0, e1, -⟩ := idx_facts t
  unfold biasBlk iblk
  rw [View.read_apply]
  show V m c main_v83 _ = V m c main_v83 _
  congr 1
  funext a
  apply Fin.ext
  match a with
  | ⟨0, _⟩ => show win0_4.index t 0 * 64 + 1 * i.val = i.val; rw [e0]; omega
  | ⟨1, _⟩ => show win0_4.index t 1 * 1 + 1 * 0 = 0; rw [e1]

/-- Entry (i, b) of the block the body stores, from blocks that are rows of whole arrays: the body's entry (i, r) of the arrays,
    r the array row that block row b is. -/
private theorem entry_of_blocks (x0 : FVec Ideal S64x512 .bf16) (x1 : FVec Ideal S512x512 .f32) (x2 : FVec Ideal S64x2048 .bf16)
    (x3 : FVec Ideal S512x2048 .f32) (x4 : FVec Ideal S64x1 .f32)
    (A0 : FVec Ideal S64x512 .bf16) (A1 : FVec Ideal S2048x512 .f32) (A2 : FVec Ideal S64x2048 .bf16)
    (A3 : FVec Ideal S2048x2048 .f32) (A4 : FVec Ideal S64x1 .f32) (i : Fin 64) (b : Fin 512) (r : Fin 2048)
    (h0 : ∀ f, x0 (ix2 i f) = A0 (ix2 i f)) (h1 : ∀ f, x1 (ix2 b f) = A1 (ix2 r f))
    (h2 : ∀ k, x2 (ix2 i k) = A2 (ix2 i k)) (h3 : ∀ k, x3 (ix2 b k) = A3 (ix2 r k))
    (h4 : x4 (ix2 i 0) = A4 (ix2 i 0)) :
    k0_pay1 (F := Ideal) x1 x3 x0 x2 x4 (ix2 i b) = Cert.Spec.outAt A0 A1 A2 A3 A4 i r := by
  rw [Cert.KernelIdeal.Body.pay_apply]
  unfold Cert.Spec.outAt
  simp only [h0, h1, h2, h3, h4]

/-- The [64 × 2048] array the region's output window ends holding: entry (i, b) is the body's entry (i, b) of the five arrays. -/
private def outArr (c : Dev nD) : FVec Ideal S64x2048 .f32 :=
  fun j => Cert.Spec.outAt (wIn m c) (obsArr m c) (wRec m c) (prevArr m c) (biasCol m c) (j 0) (j 1)

/-- Where the output block's entry (i, b) at point t sits in the output array: row i, column 512 t + b. -/
private theorem outBlk_emb (t : Fin cfg0.N) (i : Fin 64) (b : Fin 512) (r : Fin 2048) (hr : r.val = 512 * t.val + b.val) :
    ((cfg0.win 5).blk t).view.emb (ix2 i b) = (ix2 i r : S64x2048.Idx) := by
  obtain ⟨-, -, -, -, -, -, -, -, -, -, e0, e1, -⟩ := idx_facts t
  funext a
  apply Fin.ext
  match a with
  | ⟨0, _⟩ => show win0_5.index t 0 * 64 + 1 * i.val = i.val; rw [e0]; omega
  | ⟨1, _⟩ => show win0_5.index t 1 * 512 + 1 * b.val = r.val; rw [e1, hr]; omega

/-- The write-back of an uncut block moves the whole block. -/
private theorem cut_apply (t : Fin cfg0.N) (X : FVec Ideal S64x512 .f32) (i : Fin 64) (b : Fin 512) :
    (cfg0.win 5).cut (grid0.coords t) X (ix2 i b) = X (ix2 i b) := rfl

/-- Block t of an array, read at an entry, is the array at where the entry sits. -/
private theorem read_outBlk (t : Fin cfg0.N) (G : FVec Ideal S64x2048 .f32) (i : Fin 64) (b : Fin 512) :
    ((cfg0.win 5).blk t).view.read (Elt Ideal) G (ix2 i b) = G (((cfg0.win 5).blk t).view.emb (ix2 i b)) := rfl

/-- What point t writes back is block t of the output array. -/
private theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero hz]
  simp only [View.ld_unit_zero (S := S512x512) hz, View.ld_unit_zero (S := S512x2048) hz, View.ld_unit_zero (S := S64x512) hz,
    View.ld_unit_zero (S := S64x2048) hz, View.ld_unit_zero (S := S64x1) hz]
  funext j
  obtain ⟨i, b, rfl⟩ : ∃ (i : Fin 64) (b : Fin 512), j = ix2 i b := ⟨j 0, j 1, eq_ix2 j⟩
  have ht : t.val < 4 := (idx_facts t).2.2.2.2.2.2.2.2.2.2.2.2
  obtain ⟨r, hr⟩ : ∃ r : Fin 2048, r.val = 512 * t.val + b.val := ⟨⟨512 * t.val + b.val, by omega⟩, rfl⟩
  refine (cut_apply t _ i b).trans ?_
  refine Eq.trans ?_ (read_outBlk t (outArr m c) i b).symm
  rw [outBlk_emb t i b r hr]
  exact entry_of_blocks (wInBlk m c t) (obsBlk m c t) (wRecBlk m c t) (prevBlk m c t) (biasBlk m c t)
    (wIn m c) (obsArr m c) (wRec m c) (prevArr m c) (biasCol m c) i b r
    (fun f => wInBlk_apply m c t i f) (fun f => obsBlk_apply m c t b f r hr)
    (fun k => wRecBlk_apply m c t i k) (fun k => prevBlk_apply m c t b k r hr) (biasBlk_apply m c t i)

/-- An index of the output array is in point t's block iff each coordinate is in the block's range on its axis. -/
private theorem mem_blk (t : Fin cfg0.N) (i : S64x2048.Idx) :
    i ∈ ((cfg0.win 5).blk t).view.set ↔ ∀ a : Fin 2, win0_5.index t a * S64x512.size a ≤ (i a).val ∧ (i a).val < win0_5.index t a * S64x512.size a + S64x512.size a := by
  show i ∈ ((View.whole main_v84).slice (win0_5.rect t)).set ↔ _
  rw [View.set_slice_whole, Rect.mem_set_unit]
  exact Iff.rfl

/-- Column b of the output array lies in the block of point b / 512: the four blocks tile the array. -/
private theorem cover (i : S64x2048.Idx) : ∃ t : Fin cfg0.N, (cfg0.win 5).flush t = true ∧ i ∈ ((cfg0.win 5).blk t).view.set := by
  have hi0 : (i 0).val < 64 := (i 0).isLt
  have hi1 : (i 1).val < 2048 := (i 1).isLt
  obtain ⟨t, ht⟩ : ∃ t : Fin cfg0.N, t.val = (i 1).val / 512 :=
    ⟨⟨(i 1).val / 512, by rw [show cfg0.N = 4 from N_0]; omega⟩, rfl⟩
  obtain ⟨-, -, -, -, -, -, -, -, -, -, e0, e1, -⟩ := idx_facts t
  refine ⟨t, flush0_5 t, ?_⟩
  rw [mem_blk]
  intro a
  match a with
  | ⟨0, _⟩ => show win0_5.index t 0 * 64 ≤ (i 0).val ∧ (i 0).val < win0_5.index t 0 * 64 + 64; rw [e0]; omega
  | ⟨1, _⟩ => show win0_5.index t 1 * 512 ≤ (i 1).val ∧ (i 1).val < win0_5.index t 1 * 512 + 512; rw [e1, ht]; omega

/-- The output array after the region. -/
private theorem final (c : Dev nD) : (dats m 0 c).arrAt 5 cfg0.N = outArr m c :=
  (dats m 0 c).arrAt_eq_of_cover 5 (outArr m c) (fun t _ => flushed_eq m c t) cover

/-- The transpose after the region: the result buffer ends at the output array read with its two coordinates exchanged. -/
private theorem tail_result (c : Dev nD) :
    Pipeline.afterTail₀ cfgs (dats m) 0 (V0 m) [hostOps1] c main_v85 = kernelOut m c := by
  unfold Pipeline.afterTail₀
  show StableHlo.after hostOps1 _ (Proc.devRef .tc main_v85) = _
  after_results
  have hw : Pipeline.withArrays (cfgs 0).spec c (V0 m c) (fun w => (dats m 0 c).arrAt w (cfgs 0).N) (Proc.devRef .tc main_v84)
      = outArr m c :=
    (Pipeline.withArrays_arr spec0 launch0.win.arr_inj c _ _ 5).trans (final m c)
  rw [hw]
  funext j
  obtain ⟨b, i, rfl⟩ : ∃ (b : Fin 2048) (i : Fin 64), j = ix2 b i := ⟨j 0, j 1, eq_ix2 j⟩
  refine (transpose_apply [1, 0] (outArr m c) transposes_S64x2048_S2048x64_1_0 (ix2 b i) (ix2 i b) fun a => ?_).trans rfl
  match a with
  | ⟨0, _⟩ => rfl
  | ⟨1, _⟩ => rfl

end Value

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v85) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  exact (θ_run defs _ _).mono (fun r h c =>
    ⟨((h c).2 main_v85 (Pipeline.mem_restRefs_of main_v85 (by decide) (by decide))).trans (tail_result m c),
      ((h c).1 1).trans (((dats m 0 c).arrAt_in 1 rfl _).trans ((A_eq m c 1).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KValue

end
-- ==== Proof.PrefixStages.lean ====
/-
  The host lines before the kernel's one region, as named stages of the argument arrays. `keyPos` maps a node to the
  position of one of its occurrences among the output keys, or to 64 when it has none; `rowOf` sends every edge to the row
  `keyPos (dst e)` of a 65-row buffer (row 64 collects the edges no output reads); `adjSmallIn` / `adjSmallRec` scatter-add the
  edge weights at (row e, src e); `finalRows` is `keyPos (keys i)`; `adjGIn` / `adjGRec` take those 64 rows; `biasG` is the bias
  at the keys, as a column.
-/
import proofs.«422908_j73521250173176_3_alg».proof.KernelIdeal
import proofs.«422908_j73521250173176_3_alg».proof.Proof.Gen.KernelIdeal

noncomputable section

namespace Cert.KernelIdeal.Prefix

open Idealize.ShloMosaic
open Cert.KernelIdeal Cert.KernelIdeal.Facts₀ Cert.KernelIdeal.Facts

variable {F : FTy → Type} [FloatOps F]

/-- numpy's reading of a negative index, on the 64 keys: `x < 0 ? x + n : x`. -/
def wrapK (x : IVec S64 32) (n : BitVec 32) : IVec S64 32 :=
  select (cmpi .slt x (broadcastInDim S64 ![] bcast_S_S64 (constantI S_ 32 0#32)))
    (addi x (broadcastInDim S64 ![] bcast_S_S64 (constantI S_ 32 n))) x

/-- The same on the 32768 edges. -/
def wrapE (x : IVec S32768 32) (n : BitVec 32) : IVec S32768 32 :=
  select (cmpi .slt x (broadcastInDim S32768 ![] bcast_S_S32768 (constantI S_ 32 0#32)))
    (addi x (broadcastInDim S32768 ![] bcast_S_S32768 (constantI S_ 32 n))) x

/-- Node ↦ a position of it among the keys, 64 for a node that is no key: 64 everywhere, then position p set at `keys p`. -/
def keyPos (keys : IVec S64 32) : IVec S2048 32 :=
  Host.scatter scatter_S2048_S64x1_S64_n_0_0_1 (fun _ b => b)
    (broadcastInDim S2048 ![] bcast_S_S2048 (constantI S_ 32 64#32))
    (broadcastInDim S64x1 ![0] bcast_S64_S64x1_0 (wrapK keys 2048#32))
    (iotaInDim S64 32 0)

/-- Edge ↦ the buffer row of its destination. -/
def rowOf (keys : IVec S64 32) (dst : IVec S32768 32) : IVec S32768 32 :=
  Host.gather gather_S2048_S32768x1_S32768_n_0_n_n_0_1_1 (keyPos keys)
    (broadcastInDim S32768x1 ![0] bcast_S32768_S32768x1_0 (wrapE dst 2048#32))

/-- Edge ↦ the pair (row, source column) its weight is added at. -/
def pairs (row src : IVec S32768 32) (rows cols : BitVec 32) : IVec S32768x2 32 :=
  concatenate S32768x2 1 [⟨S32768x1, broadcastInDim S32768x1 ![0] bcast_S32768_S32768x1_0 (wrapE row rows)⟩,
    ⟨S32768x1, broadcastInDim S32768x1 ![0] bcast_S32768_S32768x1_0 (wrapE src cols)⟩] concatenates_S32768x1_S32768x1_S32768x2_d1

/-- The 65-row adjacency buffer of the input edges. -/
def adjSmallIn (w : FVec F S32768 .f32) (src dst : IVec S32768 32) (keys : IVec S64 32) : FVec F S65x512 .f32 :=
  Host.scatterAdd scatter_S65x512_S32768x2_S32768_n_01_01_1
    (broadcastInDim S65x512 ![] bcast_S_S65x512 (constant S_ .f32 0x00000000#32))
    (pairs (rowOf keys dst) src 65#32 512#32) w

/-- The 65-row adjacency buffer of the recurrent edges. -/
def adjSmallRec (w : FVec F S32768 .f32) (src dst : IVec S32768 32) (keys : IVec S64 32) : FVec F S65x2048 .f32 :=
  Host.scatterAdd scatter_S65x2048_S32768x2_S32768_n_01_01_1
    (broadcastInDim S65x2048 ![] bcast_S_S65x2048 (constant S_ .f32 0x00000000#32))
    (pairs (rowOf keys dst) src 65#32 2048#32) w

/-- Output position ↦ the buffer row of its key. -/
def finalRows (keys : IVec S64 32) : IVec S64 32 :=
  Host.gather gather_S2048_S64x1_S64_n_0_n_n_0_1_1 (keyPos keys)
    (broadcastInDim S64x1 ![0] bcast_S64_S64x1_0 (wrapK keys 2048#32))

/-- The 64 gathered rows of the input adjacency, in bf16. -/
def adjGIn (w : FVec F S32768 .f32) (src dst : IVec S32768 32) (keys : IVec S64 32) : FVec F S64x512 .bf16 :=
  truncf .bf16 (Host.gather gather_S65x512_S64x1_S64x512_1_0_n_n_0_1_1512 (adjSmallIn w src dst keys)
    (broadcastInDim S64x1 ![0] bcast_S64_S64x1_0 (wrapK (finalRows keys) 65#32))) bitsLt_bf16_f32

/-- The 64 gathered rows of the recurrent adjacency, in bf16. -/
def adjGRec (w : FVec F S32768 .f32) (src dst : IVec S32768 32) (keys : IVec S64 32) : FVec F S64x2048 .bf16 :=
  truncf .bf16 (Host.gather gather_S65x2048_S64x1_S64x2048_1_0_n_n_0_1_12048 (adjSmallRec w src dst keys)
    (broadcastInDim S64x1 ![0] bcast_S64_S64x1_0 (wrapK (finalRows keys) 65#32))) bitsLt_bf16_f32

/-- The bias at the keys, as a [64 × 1] column. -/
def biasG (bias : FVec F S2048 .f32) (keys : IVec S64 32) : FVec F S64x1 .f32 :=
  shapeCast S64x1 (Host.gather gather_S2048_S64x1_S64_n_0_n_n_0_1_1 bias
    (broadcastInDim S64x1 ![0] bcast_S64_S64x1_0 (wrapK keys 2048#32))) shapeCasts_S64_S64x1

end Cert.KernelIdeal.Prefix

end
-- ==== Proof.KernelPrefix.lean ====
/-
  What the region finds in the three arrays it stages besides obs and prev: the host lines before it compute the gathered
  input adjacency, the gathered recurrent adjacency and the gathered bias column of the argument arrays (PrefixStages).
  Each gathered adjacency is first written as a function of the two index columns (buffer row, source column) its
  scatter-add is given, so that the two columns' contents are read off the host lines separately.
-/
import proofs.«422908_j73521250173176_3_alg».proof.Proof.Gen.KernelIdeal.Frame
import proofs.«422908_j73521250173176_3_alg».proof.Proof.PrefixStages
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable {F : FTy → Type} [FloatOps F]

/-- The gathered input adjacency as a function of the two index columns its scatter-add is given. -/
def adjGInOf (w : FVec F S32768 .f32) (keys : IVec S64 32) (X Y : IVec S32768x1 32) : FVec F S64x512 .bf16 :=
  truncf .bf16 (Host.gather gather_S65x512_S64x1_S64x512_1_0_n_n_0_1_1512
    (Host.scatterAdd scatter_S65x512_S32768x2_S32768_n_01_01_1
      (broadcastInDim S65x512 ![] Facts₀.bcast_S_S65x512 (constant S_ .f32 0x00000000#32))
      (concatenate S32768x2 1 [⟨S32768x1, X⟩, ⟨S32768x1, Y⟩] Facts₀.concatenates_S32768x1_S32768x1_S32768x2_d1) w)
    (broadcastInDim S64x1 ![0] Facts₀.bcast_S64_S64x1_0 (wrapK (finalRows keys) 65#32))) Facts₀.bitsLt_bf16_f32

/-- The gathered recurrent adjacency as a function of the two index columns its scatter-add is given. -/
def adjGRecOf (w : FVec F S32768 .f32) (keys : IVec S64 32) (X Y : IVec S32768x1 32) : FVec F S64x2048 .bf16 :=
  truncf .bf16 (Host.gather gather_S65x2048_S64x1_S64x2048_1_0_n_n_0_1_12048
    (Host.scatterAdd scatter_S65x2048_S32768x2_S32768_n_01_01_1
      (broadcastInDim S65x2048 ![] Facts₀.bcast_S_S65x2048 (constant S_ .f32 0x00000000#32))
      (concatenate S32768x2 1 [⟨S32768x1, X⟩, ⟨S32768x1, Y⟩] Facts₀.concatenates_S32768x1_S32768x1_S32768x2_d1) w)
    (broadcastInDim S64x1 ![0] Facts₀.bcast_S64_S64x1_0 (wrapK (finalRows keys) 65#32))) Facts₀.bitsLt_bf16_f32

variable (m : (ℓ : Loc nD τ sig) → Buf (Elt F) ℓ)

set_option maxRecDepth 16384 in
set_option maxHeartbeats 2000000 in
/-- The array window 0 stages is the gathered input adjacency. -/
theorem V_main_v67 (c : Dev nD) :
    V m c main_v67 = adjGIn (m ((c : Thread nD τ).loc main_arg2)) (m ((c : Thread nD τ).loc main_arg5))
      (m ((c : Thread nD τ).loc main_arg6)) (m ((c : Thread nD τ).loc main_arg9)) := by
  show StableHlo.after hostOps0 (fun b => m (c, b)) (Proc.devRef .tc main_v67) = _
  after_results_simp
  refine (congrArg₂ (adjGInOf (m ((c : Thread nD τ).loc main_arg2)) (m ((c : Thread nD τ).loc main_arg9))) ?_ ?_ :
    adjGInOf (m ((c : Thread nD τ).loc main_arg2)) (m ((c : Thread nD τ).loc main_arg9)) _ _
      = adjGInOf (m ((c : Thread nD τ).loc main_arg2)) (m ((c : Thread nD τ).loc main_arg9))
        (broadcastInDim S32768x1 ![0] Facts₀.bcast_S32768_S32768x1_0
          (wrapE (rowOf (m ((c : Thread nD τ).loc main_arg9)) (m ((c : Thread nD τ).loc main_arg6))) 65#32))
        (broadcastInDim S32768x1 ![0] Facts₀.bcast_S32768_S32768x1_0 (wrapE (m ((c : Thread nD τ).loc main_arg5)) 512#32)))
  · after_results_simp <;> rfl
  · after_results_simp <;> rfl

set_option maxRecDepth 16384 in
set_option maxHeartbeats 2000000 in
/-- The array window 2 stages is the gathered recurrent adjacency. -/
theorem V_main_v75 (c : Dev nD) :
    V m c main_v75 = adjGRec (m ((c : Thread nD τ).loc main_arg3)) (m ((c : Thread nD τ).loc main_arg7))
      (m ((c : Thread nD τ).loc main_arg8)) (m ((c : Thread nD τ).loc main_arg9)) := by
  show StableHlo.after hostOps0 (fun b => m (c, b)) (Proc.devRef .tc main_v75) = _
  after_results_simp
  refine (congrArg₂ (adjGRecOf (m ((c : Thread nD τ).loc main_arg3)) (m ((c : Thread nD τ).loc main_arg9))) ?_ ?_ :
    adjGRecOf (m ((c : Thread nD τ).loc main_arg3)) (m ((c : Thread nD τ).loc main_arg9)) _ _
      = adjGRecOf (m ((c : Thread nD τ).loc main_arg3)) (m ((c : Thread nD τ).loc main_arg9))
        (broadcastInDim S32768x1 ![0] Facts₀.bcast_S32768_S32768x1_0
          (wrapE (rowOf (m ((c : Thread nD τ).loc main_arg9)) (m ((c : Thread nD τ).loc main_arg8))) 65#32))
        (broadcastInDim S32768x1 ![0] Facts₀.bcast_S32768_S32768x1_0 (wrapE (m ((c : Thread nD τ).loc main_arg7)) 2048#32)))
  · after_results_simp <;> rfl
  · after_results_simp <;> rfl

set_option maxRecDepth 16384 in
set_option maxHeartbeats 2000000 in
/-- The array window 4 stages is the gathered bias column. -/
theorem V_main_v83 (c : Dev nD) :
    V m c main_v83 = biasG (m ((c : Thread nD τ).loc main_arg4)) (m ((c : Thread nD τ).loc main_arg9)) := by
  show StableHlo.after hostOps0 (fun b => m (c, b)) (Proc.devRef .tc main_v83) = _
  after_results_simp <;> rfl

end Cert.KernelIdeal.Prefix

end
-- ==== Proof.LibScatterSet.lean ====
/-
  `x.at[idx].set(v)` of a rank-1 table, every index in range, read at an entry: an entry no index names keeps the operand's
  value; an entry some index names holds the update of ONE of the positions naming it. Which of them is the scatter's own
  business (the order it applies colliding updates in); nothing here depends on it.
-/
import Idealize.ShloMosaic.Lib.ValueIdx
import Idealize.ShloMosaic.PureOps

noncomputable section

namespace Cert.Lib.ScatterGather

open Idealize.ShloMosaic Idealize.ShloMosaic.ValueIdx

/-- A 32-bit word below `2^31` reads the same signed and unsigned. -/
private theorem toInt_of_lt (b : BitVec 32) (h : b.toNat < 2 ^ 31) : b.toInt = (b.toNat : Int) := by
  rw [BitVec.toInt_eq_toNat_cond]
  split <;> omega

/-- With no window axes, the operand's one axis inserted and start-indexed, and the index vector on axis 1, update position
    `p` lands at entry `idx[p, 0]` read unsigned, when that is inside the table: the window coordinate is 0, and the start,
    read signed, is the unsigned reading because the word is below `2^31`. -/
private theorem resultIdx_eq {N K : Nat} (d : ScatterDims ⟨1, ![N]⟩ ⟨2, ![K, 1]⟩ ⟨1, ![K]⟩)
    (hwin : d.updateWindowDims = []) (hins : d.insertedWindowDims = [0]) (hsd : d.scatterDimsToOperandDims = [0])
    (hivd : d.indexVectorDim = 1) (hN31 : N ≤ 2 ^ 31) (idx : IVec ⟨2, ![K, 1]⟩ 32) (p : Fin K)
    (hp : (idx (ix2 p 0)).toNat < N) :
    d.resultIdx? (ix1 p) idx = some (ix1 ⟨(idx (ix2 p 0)).toNat, hp⟩) := by
  have hwindow : ∀ a, d.window (ix1 p) a = 0 := by
    intro a
    have ha : a = 0 := Subsingleton.elim _ _
    subst ha
    unfold ScatterDims.window
    rw [dif_neg]
    show (0 : Fin 1) ∉ Shape.kept _ d.insertedWindowDims
    rw [hins]
    simp [Shape.kept]
  have hstart : ∀ a, d.start (ix1 p) idx a = ((idx (ix2 p 0)).toNat : Int) := by
    intro a
    have ha : a = 0 := Subsingleton.elim _ _
    subst ha
    have hm : (0 : Fin 1) ∈ d.scatterDimsToOperandDims := by rw [hsd]; exact List.mem_singleton.mpr rfl
    unfold ScatterDims.start
    rw [dif_pos hm]
    have hsi : d.siIdx (ix1 p) ⟨d.scatterDimsToOperandDims.idxOf 0, List.idxOf_lt_length_iff.2 hm⟩ = ix2 p 0 := by
      funext b
      match b with
      | ⟨0, _⟩ =>
        unfold ScatterDims.siIdx
        rw [dif_neg (by rw [hivd]; simp)]
        unfold ScatterDims.siCoord
        apply Fin.ext
        simp only [Fin.val_cast]
        have e : ∀ X : Fin 1, ((ix1 p : (⟨1, ![K]⟩ : Shape).Idx) X).val = p.val := fun X => by
          have hX : X = 0 := Subsingleton.elim _ _
          subst hX; rfl
        exact e _
      | ⟨1, _⟩ =>
        unfold ScatterDims.siIdx
        rw [dif_pos (by rw [hivd])]
        apply Fin.ext
        show List.idxOf (0 : Fin 1) d.scatterDimsToOperandDims = 0
        rw [hsd]; simp
    rw [hsi]
    exact toInt_of_lt _ (by omega)
  unfold ScatterDims.resultIdx?
  have hcond : ∀ a, 0 ≤ d.start (ix1 p) idx a + d.window (ix1 p) a ∧
      d.start (ix1 p) idx a + d.window (ix1 p) a < (⟨1, ![N]⟩ : Shape).size a := by
    intro a
    rw [hstart, hwindow]
    have ha : a = 0 := Subsingleton.elim _ _
    subst ha
    show _ ∧ _ < ((N : Nat) : Int)
    omega
  rw [dif_pos hcond]
  congr 1
  funext a
  have ha : a = 0 := Subsingleton.elim _ _
  subst ha
  apply Fin.ext
  show (d.start (ix1 p) idx 0 + d.window (ix1 p) 0).toNat = (idx (ix2 p 0)).toNat
  rw [hstart, hwindow]
  simp

/-- Folding "set entry `tgt c` to `v c`" over a list of positions `l`, from `r₀`: an entry no position of `l` names keeps
    `r₀`'s value; an entry some position names holds `v` at one of the positions naming it. -/
private theorem foldl_set_inv {ι β γ : Type} [DecidableEq ι] (tgt : γ → ι) (v : γ → β) (l : List γ) (r₀ : ι → β) (n : ι) :
    ((l.foldl (fun r c => fun i' => if i' = tgt c then v c else r i') r₀) n = r₀ n ∧ ∀ c ∈ l, tgt c ≠ n)
    ∨ ∃ c ∈ l, tgt c = n ∧ (l.foldl (fun r c => fun i' => if i' = tgt c then v c else r i') r₀) n = v c := by
  induction l generalizing r₀ with
  | nil => exact Or.inl ⟨rfl, fun _ h => absurd h List.not_mem_nil⟩
  | cons c l ih =>
    rw [List.foldl_cons]
    rcases ih (fun i' => if i' = tgt c then v c else r₀ i') with ⟨h1, h2⟩ | ⟨c', hc', ht, hv⟩
    · by_cases hn : n = tgt c
      · refine Or.inr ⟨c, List.mem_cons_self, hn.symm, ?_⟩
        rw [h1, if_pos hn]
      · refine Or.inl ⟨?_, ?_⟩
        · rw [h1, if_neg hn]
        · intro c' hc'
          rcases List.mem_cons.1 hc' with rfl | hc'
          · exact fun h => hn h.symm
          · exact h2 c' hc'
    · exact Or.inr ⟨c', List.mem_cons_of_mem _ hc', ht, hv⟩

theorem scatter_set_apply {α : Type} {N K : Nat} (d : ScatterDims ⟨1, ![N]⟩ ⟨2, ![K, 1]⟩ ⟨1, ![K]⟩)
    (hwin : d.updateWindowDims = []) (hins : d.insertedWindowDims = [0]) (hsd : d.scatterDimsToOperandDims = [0])
    (hivd : d.indexVectorDim = 1) (hN31 : N ≤ 2 ^ 31)
    (x : (⟨1, ![N]⟩ : Shape).Idx → α) (idx : IVec ⟨2, ![K, 1]⟩ 32) (upd : (⟨1, ![K]⟩ : Shape).Idx → α)
    (hin : ∀ p : Fin K, (idx (ix2 p 0)).toNat < N) (n : Fin N) :
    (Host.scatter d (fun _ b => b) x idx upd (ix1 n) = x (ix1 n) ∧ ∀ p : Fin K, (idx (ix2 p 0)).toNat ≠ n.val)
    ∨ ∃ p : Fin K, (idx (ix2 p 0)).toNat = n.val ∧ Host.scatter d (fun _ b => b) x idx upd (ix1 n) = upd (ix1 p) := by
  -- the entry update position `m` (in row-major order) lands at, and the value it writes
  let u : Shape := ⟨1, ![K]⟩
  let coord : Fin u.numel → Fin K := fun m => (u.rowMajor.symm m) 0
  let tgt : Fin u.numel → (⟨1, ![N]⟩ : Shape).Idx := fun m => ix1 ⟨(idx (ix2 (coord m) 0)).toNat, hin _⟩
  let v : Fin u.numel → α := fun m => upd (ix1 (coord m))
  have hsymm : ∀ m : Fin u.numel, u.rowMajor.symm m = ix1 (coord m) := fun m => eq_ix1 _
  -- every step of the scatter's fold is such a "set"
  have hfold : Host.scatter d (fun _ b => b) x idx upd
      = (List.finRange u.numel).foldl (fun r m => fun i' => if i' = tgt m then v m else r i') x := by
    unfold Host.scatter
    congr 1
    funext r m
    rw [hsymm m, resultIdx_eq d hwin hins hsd hivd hN31 idx (coord m) (hin _)]
  rw [hfold]
  rcases foldl_set_inv tgt v (List.finRange u.numel) x (ix1 n) with ⟨h1, h2⟩ | ⟨m, _, ht, hv⟩
  · refine Or.inl ⟨h1, fun p hp => ?_⟩
    refine h2 (u.rowMajor (ix1 p)) (List.mem_finRange _) ?_
    show ix1 _ = ix1 n
    congr 1
    apply Fin.ext
    show (idx (ix2 ((u.rowMajor.symm (u.rowMajor (ix1 p))) 0) 0)).toNat = n.val
    rw [Equiv.symm_apply_apply]
    exact hp
  · refine Or.inr ⟨coord m, ?_, ?_⟩
    · have := congrArg (fun j : (⟨1, ![N]⟩ : Shape).Idx => (j 0).val) ht
      exact this
    · exact hv

end Cert.Lib.ScatterGather

end
-- ==== Proof.KeyPos.lean ====
/-
  The key-position table. `keyPos keys` starts at 64 everywhere and has position p written at node `keys p`; so a node that
  is no key reads 64, and a node that is a key reads SOME position p < 64 with `keys p` that node. Hence two nodes, one of
  them a key, have the same table entry exactly when they are the same node: that is what lets the edges be routed by
  table entry instead of by destination node.
-/
import proofs.«422908_j73521250173176_3_alg».proof.Proof.PrefixStages
import proofs.«422908_j73521250173176_3_alg».proof.Proof.LibScatterSet
import proofs.«422908_j73521250173176_3_alg».proof.Proof.LibGather
import Idealize.ShloMosaic.Lib.ValueIdx
import Idealize.ShloMosaic.Lib.IdealHost
import Idealize.ShloMosaic.Lib.Pipeline.Value
import Idealize.ShloMosaic.Lib.StableHlo.Predicate

noncomputable section

namespace Cert.KernelIdeal.Prefix

open Idealize.ShloMosaic Idealize.ShloMosaic.ValueIdx Cert.KernelIdeal Cert.Lib.ScatterGather

/-- A word in [0, 2³¹) is not below zero in the signed order. -/
private theorem cmpi_slt_zero (v : BitVec 32) (h : v.toNat < 2 ^ 31) : IntOp.cmpi .slt v 0#32 = 0#1 := by
  have hne : IntOp.cmpi .slt v 0#32 ≠ 1#1 := fun h1 =>
    absurd ((StableHlo.Predicate.slt_iff_toNat h (by decide)).1 h1) (by simp)
  generalize IntOp.cmpi .slt v 0#32 = c at hne
  have hc := c.isLt
  have h1 : c.toNat ≠ 1 := fun e => hne (BitVec.eq_of_toNat_eq e)
  apply BitVec.eq_of_toNat_eq
  show c.toNat = 0
  omega

/-- numpy's wrap is the identity on a word in `[0, 2³¹)`, entry by entry, on the keys. -/
theorem wrapK_apply (x : IVec S64 32) (n : BitVec 32) (i : S64.Idx) (h : (x i).toNat < 2 ^ 31) : wrapK x n i = x i := by
  unfold wrapK
  rw [select_apply]
  have hc : cmpi .slt x (broadcastInDim S64 ![] Facts₀.bcast_S_S64 (constantI S_ 32 0#32)) i = 0#1 := by
    show IntOp.cmpi .slt (x i) (broadcastInDim S64 ![] Facts₀.bcast_S_S64 (constantI S_ 32 0#32) i) = 0#1
    rw [broadcastInDim_scalar_apply]
    exact cmpi_slt_zero _ h
  rw [hc, select_zero]

/-- The same on the edges. -/
theorem wrapE_apply (x : IVec S32768 32) (n : BitVec 32) (i : S32768.Idx) (h : (x i).toNat < 2 ^ 31) : wrapE x n i = x i := by
  unfold wrapE
  rw [select_apply]
  have hc : cmpi .slt x (broadcastInDim S32768 ![] Facts₀.bcast_S_S32768 (constantI S_ 32 0#32)) i = 0#1 := by
    show IntOp.cmpi .slt (x i) (broadcastInDim S32768 ![] Facts₀.bcast_S_S32768 (constantI S_ 32 0#32) i) = 0#1
    rw [broadcastInDim_scalar_apply]
    exact cmpi_slt_zero _ h
  rw [hc, select_zero]

/-- The keys as a [64 × 1] column of wrapped indices read, at (p, 0), key p. -/
private theorem keyCol_apply (keys : IVec S64 32) (hkeys : ∀ i, (keys i).toNat < 2048) (p : Fin 64) :
    broadcastInDim S64x1 ![0] Facts₀.bcast_S64_S64x1_0 (wrapK keys 2048#32) (ix2 p 0) = keys (ix1 p) := by
  have hcol : broadcastInDim S64x1 ![0] Facts₀.bcast_S64_S64x1_0 (wrapK keys 2048#32) (ix2 p 0) = wrapK keys 2048#32 (ix1 p) := by
    unfold broadcastInDim
    congr 1
    funext a
    have ha : a = 0 := Subsingleton.elim _ _
    subst ha
    apply Fin.ext
    split
    · next h1 => exact absurd h1 (by decide)
    · rfl
  rw [hcol]
  exact wrapK_apply keys _ _ (by have := hkeys (ix1 p); omega)

/-- A node that is no key reads 64; a node that is a key reads a position of it. -/
theorem keyPos_spec (keys : IVec S64 32) (hkeys : ∀ i, (keys i).toNat < 2048) (n : Fin 2048) :
    (keyPos keys (ix1 n) = 64#32 ∧ ∀ p : Fin 64, (keys (ix1 p)).toNat ≠ n.val)
    ∨ ∃ p : Fin 64, (keys (ix1 p)).toNat = n.val ∧ keyPos keys (ix1 n) = BitVec.ofNat 32 p.val := by
  have hin : ∀ p : Fin 64,
      (broadcastInDim S64x1 ![0] Facts₀.bcast_S64_S64x1_0 (wrapK keys 2048#32) (ix2 p 0)).toNat < 2048 := fun p => by
    rw [keyCol_apply keys hkeys]; exact hkeys _
  -- the table is a "set" scatter of the positions at the keys, over the constant 64
  have s0 := @scatter_set_apply (BitVec 32) 2048 64 scatter_S2048_S64x1_S64_n_0_0_1 rfl rfl rfl rfl (by decide)
  have s1 := s0 (broadcastInDim S2048 ![] Facts₀.bcast_S_S2048 (constantI S_ 32 64#32))
  have s2 := s1 (broadcastInDim S64x1 ![0] Facts₀.bcast_S64_S64x1_0 (wrapK keys 2048#32))
  have s3 := s2 (iotaInDim S64 32 0)
  rcases s3 hin n with ⟨h1, h2⟩ | ⟨p, hp, hv⟩
  · refine Or.inl ⟨?_, fun p => ?_⟩
    · unfold keyPos
      rw [h1, broadcastInDim_scalar_apply]
      rfl
    · have := h2 p
      rwa [keyCol_apply keys hkeys] at this
  · refine Or.inr ⟨p, ?_, ?_⟩
    · rwa [keyCol_apply keys hkeys] at hp
    · unfold keyPos
      rw [hv]
      rfl

/-- Every table entry is at most 64. -/
theorem keyPos_le (keys : IVec S64 32) (hkeys : ∀ i, (keys i).toNat < 2048) (n : Fin 2048) :
    (keyPos keys (ix1 n)).toNat ≤ 64 := by
  rcases keyPos_spec keys hkeys n with ⟨h, _⟩ | ⟨p, _, h⟩
  · rw [h]; decide
  · rw [h, BitVec.toNat_ofNat]
    have := p.isLt
    omega

/-- A key's table entry is below 64. -/
theorem keyPos_key_lt (keys : IVec S64 32) (hkeys : ∀ i, (keys i).toNat < 2048) (i : Fin 64) :
    (keyPos keys (ix1 ⟨(keys (ix1 i)).toNat, hkeys _⟩)).toNat < 64 := by
  rcases keyPos_spec keys hkeys ⟨(keys (ix1 i)).toNat, hkeys _⟩ with ⟨_, h⟩ | ⟨p, _, h⟩
  · exact absurd rfl (h i)
  · rw [h, BitVec.toNat_ofNat]
    have := p.isLt
    omega

/-- A node has the table entry of key i exactly when it is that key. -/
theorem keyPos_eq_iff (keys : IVec S64 32) (hkeys : ∀ i, (keys i).toNat < 2048) (a : Fin 2048) (i : Fin 64) :
    keyPos keys (ix1 a) = keyPos keys (ix1 ⟨(keys (ix1 i)).toNat, hkeys _⟩) ↔ a.val = (keys (ix1 i)).toNat := by
  constructor
  · intro hEq
    rcases keyPos_spec keys hkeys ⟨(keys (ix1 i)).toNat, hkeys _⟩ with ⟨_, h⟩ | ⟨p, hp, hv⟩
    · exact absurd rfl (h i)
    · have hpl := p.isLt
      rcases keyPos_spec keys hkeys a with ⟨h64, _⟩ | ⟨p', hp', hv'⟩
      · rw [h64, hv] at hEq
        have ht := congrArg BitVec.toNat hEq
        simp only [BitVec.toNat_ofNat] at ht
        have h64n : (64#32 : BitVec 32).toNat = 64 := by decide
        omega
      · have hpl' := p'.isLt
        rw [hv', hv] at hEq
        have ht := congrArg BitVec.toNat hEq
        rw [BitVec.toNat_ofNat, BitVec.toNat_ofNat] at ht
        have hpp : p' = p := Fin.ext (by omega)
        subst hpp
        exact hp'.symm.trans hp
  · intro h
    have ha : a = ⟨(keys (ix1 i)).toNat, hkeys _⟩ := Fin.ext h
    rw [ha]

end Cert.KernelIdeal.Prefix

end
-- ==== Proof.PrefixRead.lean ====
/-
  The three arrays the region stages besides obs and prev, read at an entry, on the domain (every index in range):
  the gathered adjacency row of output i at column f is the sum of the weights of the edges from f into node `keys i`
  (routing by table entry is routing by node: KeyPos), and the gathered bias column at i is the bias of node `keys i`.
-/
import proofs.«422908_j73521250173176_3_alg».proof.Proof.PrefixStages
import proofs.«422908_j73521250173176_3_alg».proof.Proof.KeyPos
import proofs.«422908_j73521250173176_3_alg».proof.Proof.LibGather
import proofs.«422908_j73521250173176_3_alg».proof.Proof.LibScatterAdd
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.Prefix

open Idealize.ShloMosaic Idealize.ShloMosaic.ValueIdx Cert.KernelIdeal Cert.Lib.ScatterGather

/-- The [64 × 1] column of a 64-vector reads the vector at the row. -/
private theorem colK_apply {α : Type} (x : S64.Idx → α) (p : Fin 64) :
    broadcastInDim S64x1 ![0] Facts₀.bcast_S64_S64x1_0 x (ix2 p 0) = x (ix1 p) := by
  refine broadcastInDim_apply _ _ x _ (ix1 p) fun a => ?_
  match a with
  | ⟨0, _⟩ => rfl

/-- The [32768 × 1] column of a 32768-vector reads the vector at the row. -/
private theorem colE_apply {α : Type} (x : S32768.Idx → α) (e : Fin 32768) :
    broadcastInDim S32768x1 ![0] Facts₀.bcast_S32768_S32768x1_0 x (ix2 e 0) = x (ix1 e) := by
  refine broadcastInDim_apply _ _ x _ (ix1 e) fun a => ?_
  match a with
  | ⟨0, _⟩ => rfl

/-- A word already in `[0, N)` is its own clamp, as an element of `Fin N`. -/
private theorem clampFin_eq (N : Nat) (hN : 0 < N) (hN31 : N ≤ 2 ^ 31) (v : BitVec 32) (h : v.toNat < N) :
    clampFin N hN v = ⟨v.toNat, h⟩ := Fin.ext (clampFin_val_of_lt N hN hN31 v h)

/-- Output position i reads the table at its key. -/
private theorem finalRows_apply (keys : IVec S64 32) (hkeys : ∀ i, (keys i).toNat < 2048) (i : Fin 64) :
    finalRows keys (ix1 i) = keyPos keys (ix1 ⟨(keys (ix1 i)).toNat, hkeys _⟩) := by
  unfold finalRows
  rw [gather_take_apply' _ rfl rfl rfl rfl (by decide), colK_apply,
    wrapK_apply _ _ _ (by have := hkeys (ix1 i); omega), clampFin_eq 2048 _ (by decide) _ (hkeys _)]

/-- Edge e reads the table at its destination. -/
private theorem rowOf_apply (keys : IVec S64 32) (dst : IVec S32768 32) (hdst : ∀ i, (dst i).toNat < 2048) (e : Fin 32768) :
    rowOf keys dst (ix1 e) = keyPos keys (ix1 ⟨(dst (ix1 e)).toNat, hdst _⟩) := by
  unfold rowOf
  rw [gather_take_apply' _ rfl rfl rfl rfl (by decide), colE_apply,
    wrapE_apply _ _ _ (by have := hdst (ix1 e); omega), clampFin_eq 2048 _ (by decide) _ (hdst _)]

/-- The pair of edge e, first entry: the (wrapped) row. -/
private theorem pairs_apply_0 (row src : IVec S32768 32) (rows cols : BitVec 32) (e : Fin 32768) :
    pairs row src rows cols (ix2 e 0) = wrapE row rows (ix1 e) := by
  unfold pairs
  refine (concatenate_pair_apply_left (t := S32768x2) (s₁ := S32768x1) (s₂ := S32768x1) 1 _ _ _
    (ix2 e 0) rfl (ix2 e 0) (fun b => ?_)).trans (colE_apply _ e)
  match b with
  | ⟨0, _⟩ => rfl
  | ⟨1, _⟩ => rfl

/-- The pair of edge e, second entry: the (wrapped) source column. -/
private theorem pairs_apply_1 (row src : IVec S32768 32) (rows cols : BitVec 32) (e : Fin 32768) :
    pairs row src rows cols (ix2 e 1) = wrapE src cols (ix1 e) := by
  unfold pairs
  refine (concatenate_pair_apply_right (t := S32768x2) (s₁ := S32768x1) (s₂ := S32768x1) 1 _ _ _
    (ix2 e 1) rfl rfl (ix2 e 0) (fun b hb => ?_) rfl).trans (colE_apply _ e)
  match b, hb with
  | ⟨0, _⟩, _ => rfl
  | ⟨1, _⟩, hb => exact absurd rfl hb

/-- The 65-row input buffer at (r, f): the weights of the edges whose destination has table entry r and whose source is f. -/
private theorem adjSmallIn_apply (w : FVec Ideal S32768 .f32) (src dst : IVec S32768 32) (keys : IVec S64 32)
    (hsrc : ∀ i, (src i).toNat < 512) (hdst : ∀ i, (dst i).toNat < 2048) (hkeys : ∀ i, (keys i).toNat < 2048)
    (r : Fin 65) (f : Fin 512) :
    adjSmallIn (F := Ideal) w src dst keys (ix2 r f)
      = ∑ e : Fin 32768, if (keyPos keys (ix1 ⟨(dst (ix1 e)).toNat, hdst _⟩)).toNat = r.val ∧ (src (ix1 e)).toNat = f.val
          then w (ix1 e) else 0 := by
  unfold adjSmallIn
  show Ideal.hostScatterAdd _ _ _ _ (ix2 r f) = _
  rw [scatterAdd_pairs_apply _ rfl rfl rfl rfl]
  -- the operand is zero everywhere
  have hz : broadcastInDim S65x512 ![] Facts₀.bcast_S_S65x512 (constant (F := Ideal) S_ .f32 0x00000000#32) (ix2 r f) = 0 := by
    rw [broadcastInDim_apply _ _ _ _ ix0 (fun a => a.elim0), constant_apply]
    exact Ideal.ofBits_zero_f32
  rw [hz, zero_add]
  refine Finset.sum_congr rfl fun e _ => ?_
  -- the pair of edge e is (table entry of its destination, its source), both small words
  have h0 : (pairs (rowOf keys dst) src 65#32 512#32 (ix2 e 0)).toInt
      = ((keyPos keys (ix1 ⟨(dst (ix1 e)).toNat, hdst _⟩)).toNat : Int) := by
    have hle := keyPos_le keys hkeys ⟨(dst (ix1 e)).toNat, hdst _⟩
    rw [pairs_apply_0, wrapE_apply _ _ _ (by rw [rowOf_apply keys dst hdst e]; omega), rowOf_apply keys dst hdst e,
      toInt_of_lt _ (by omega)]
  have h1 : (pairs (rowOf keys dst) src 65#32 512#32 (ix2 e 1)).toInt = ((src (ix1 e)).toNat : Int) := by
    have := hsrc (ix1 e)
    rw [pairs_apply_1, wrapE_apply _ _ _ (by omega), toInt_of_lt _ (by omega)]
  rw [h0, h1]
  simp only [Nat.cast_inj]

/-- The 65-row recurrent buffer at (r, f): the weights of the edges whose destination has table entry r and whose source is f. -/
private theorem adjSmallRec_apply (w : FVec Ideal S32768 .f32) (src dst : IVec S32768 32) (keys : IVec S64 32)
    (hsrc : ∀ i, (src i).toNat < 2048) (hdst : ∀ i, (dst i).toNat < 2048) (hkeys : ∀ i, (keys i).toNat < 2048)
    (r : Fin 65) (f : Fin 2048) :
    adjSmallRec (F := Ideal) w src dst keys (ix2 r f)
      = ∑ e : Fin 32768, if (keyPos keys (ix1 ⟨(dst (ix1 e)).toNat, hdst _⟩)).toNat = r.val ∧ (src (ix1 e)).toNat = f.val
          then w (ix1 e) else 0 := by
  unfold adjSmallRec
  show Ideal.hostScatterAdd _ _ _ _ (ix2 r f) = _
  rw [scatterAdd_pairs_apply _ rfl rfl rfl rfl]
  -- the operand is zero everywhere
  have hz : broadcastInDim S65x2048 ![] Facts₀.bcast_S_S65x2048 (constant (F := Ideal) S_ .f32 0x00000000#32) (ix2 r f) = 0 := by
    rw [broadcastInDim_apply _ _ _ _ ix0 (fun a => a.elim0), constant_apply]
    exact Ideal.ofBits_zero_f32
  rw [hz, zero_add]
  refine Finset.sum_congr rfl fun e _ => ?_
  -- the pair of edge e is (table entry of its destination, its source), both small words
  have h0 : (pairs (rowOf keys dst) src 65#32 2048#32 (ix2 e 0)).toInt
      = ((keyPos keys (ix1 ⟨(dst (ix1 e)).toNat, hdst _⟩)).toNat : Int) := by
    have hle := keyPos_le keys hkeys ⟨(dst (ix1 e)).toNat, hdst _⟩
    rw [pairs_apply_0, wrapE_apply _ _ _ (by rw [rowOf_apply keys dst hdst e]; omega), rowOf_apply keys dst hdst e,
      toInt_of_lt _ (by omega)]
  have h1 : (pairs (rowOf keys dst) src 65#32 2048#32 (ix2 e 1)).toInt = ((src (ix1 e)).toNat : Int) := by
    have := hsrc (ix1 e)
    rw [pairs_apply_1, wrapE_apply _ _ _ (by omega), toInt_of_lt _ (by omega)]
  rw [h0, h1]
  simp only [Nat.cast_inj]

theorem adjGIn_apply (w : FVec Ideal S32768 .f32) (src dst : IVec S32768 32) (keys : IVec S64 32)
    (hsrc : ∀ i, (src i).toNat < 512) (hdst : ∀ i, (dst i).toNat < 2048) (hkeys : ∀ i, (keys i).toNat < 2048)
    (i : Fin 64) (f : Fin 512) :
    adjGIn (F := Ideal) w src dst keys (ix2 i f)
      = ∑ e : Fin 32768, if (dst (ix1 e)).toNat = (keys (ix1 i)).toNat ∧ (src (ix1 e)).toNat = f.val then w (ix1 e) else 0 := by
  unfold adjGIn
  rw [truncf_apply, gather_rows_apply _ rfl rfl rfl rfl rfl (by decide)]
  -- the row read is the table entry of key i, which is below 64
  have hlt := keyPos_key_lt keys hkeys i
  have hrow : ∀ h, clampFin 65 h (broadcastInDim S64x1 ![0] Facts₀.bcast_S64_S64x1_0 (wrapK (finalRows keys) 65#32) (ix2 i 0))
      = ⟨(keyPos keys (ix1 ⟨(keys (ix1 i)).toNat, hkeys _⟩)).toNat, by omega⟩ := by
    intro h
    rw [colK_apply, wrapK_apply _ _ _ (by rw [finalRows_apply keys hkeys i]; omega), finalRows_apply keys hkeys i]
    exact clampFin_eq 65 _ (by decide) _ (by omega)
  rw [hrow, adjSmallIn_apply w src dst keys hsrc hdst hkeys]
  refine Finset.sum_congr rfl fun e _ => ?_
  -- an edge's destination has the table entry of key i exactly when it is that key
  have hiff : (keyPos keys (ix1 ⟨(dst (ix1 e)).toNat, hdst _⟩)).toNat
        = (keyPos keys (ix1 ⟨(keys (ix1 i)).toNat, hkeys _⟩)).toNat
      ↔ (dst (ix1 e)).toNat = (keys (ix1 i)).toNat := by
    rw [← keyPos_eq_iff keys hkeys ⟨(dst (ix1 e)).toNat, hdst _⟩ i]
    exact ⟨fun h => BitVec.eq_of_toNat_eq h, fun h => congrArg BitVec.toNat h⟩
  simp only [hiff]

theorem adjGRec_apply (w : FVec Ideal S32768 .f32) (src dst : IVec S32768 32) (keys : IVec S64 32)
    (hsrc : ∀ i, (src i).toNat < 2048) (hdst : ∀ i, (dst i).toNat < 2048) (hkeys : ∀ i, (keys i).toNat < 2048)
    (i : Fin 64) (f : Fin 2048) :
    adjGRec (F := Ideal) w src dst keys (ix2 i f)
      = ∑ e : Fin 32768, if (dst (ix1 e)).toNat = (keys (ix1 i)).toNat ∧ (src (ix1 e)).toNat = f.val then w (ix1 e) else 0 := by
  unfold adjGRec
  rw [truncf_apply, gather_rows_apply _ rfl rfl rfl rfl rfl (by decide)]
  -- the row read is the table entry of key i, which is below 64
  have hlt := keyPos_key_lt keys hkeys i
  have hrow : ∀ h, clampFin 65 h (broadcastInDim S64x1 ![0] Facts₀.bcast_S64_S64x1_0 (wrapK (finalRows keys) 65#32) (ix2 i 0))
      = ⟨(keyPos keys (ix1 ⟨(keys (ix1 i)).toNat, hkeys _⟩)).toNat, by omega⟩ := by
    intro h
    rw [colK_apply, wrapK_apply _ _ _ (by rw [finalRows_apply keys hkeys i]; omega), finalRows_apply keys hkeys i]
    exact clampFin_eq 65 _ (by decide) _ (by omega)
  rw [hrow, adjSmallRec_apply w src dst keys hsrc hdst hkeys]
  refine Finset.sum_congr rfl fun e _ => ?_
  -- an edge's destination has the table entry of key i exactly when it is that key
  have hiff : (keyPos keys (ix1 ⟨(dst (ix1 e)).toNat, hdst _⟩)).toNat
        = (keyPos keys (ix1 ⟨(keys (ix1 i)).toNat, hkeys _⟩)).toNat
      ↔ (dst (ix1 e)).toNat = (keys (ix1 i)).toNat := by
    rw [← keyPos_eq_iff keys hkeys ⟨(dst (ix1 e)).toNat, hdst _⟩ i]
    exact ⟨fun h => BitVec.eq_of_toNat_eq h, fun h => congrArg BitVec.toNat h⟩
  simp only [hiff]

theorem biasG_apply (bias : FVec Ideal S2048 .f32) (keys : IVec S64 32) (hkeys : ∀ i, (keys i).toNat < 2048) (i : Fin 64) :
    biasG (F := Ideal) bias keys (ix2 i 0) = bias (ix1 (clampFin 2048 (by decide) (keys (ix1 i)))) := by
  unfold biasG
  -- the [64] vector viewed as a [64 × 1] column reads, at (i, 0), the vector at i
  rw [shapeCast_apply _ _ (ix2 i 0) (ix1 i) (by
    rw [Shape.rowMajor_val_one, Shape.rowMajor_val_two]
    show i.val = i.val * 1 + 0
    omega)]
  rw [gather_take_apply' _ rfl rfl rfl rfl (by decide), colK_apply,
    wrapK_apply _ _ _ (by have := hkeys (ix1 i); omega)]

end Cert.KernelIdeal.Prefix

end
-- ==== Proof.LibSumSwap.lean ====
/-
  Folding an edge list into a dense adjacency row and contracting it with a vector is summing over the edges: for finite
  weights w and finite values X,  ∑_f (∑_{e : P e, s e = f} w e) · X f  =  ∑_{e : P e} X (s e) · w e.
  The law is distributivity of · over a finite sum, which on the extended reals needs every term finite.
-/
import Mathlib.Data.EReal.Basic
import Mathlib.Algebra.BigOperators.Fin
import Mathlib.Algebra.BigOperators.Ring.Finset

noncomputable section

namespace Cert.Lib.SumSwap

/-- The inclusion of the reals in the extended reals commutes with finite sums. -/
private theorem coe_finset_sum {ι : Type} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

theorem sum_adj_swap {E C : Nat} (P : Fin E → Prop) [DecidablePred P] (s : Fin E → Fin C) (w : Fin E → EReal) (X : Fin C → EReal)
    (hw : ∀ e, ∃ r : ℝ, w e = (r : EReal)) (hX : ∀ f, ∃ r : ℝ, X f = (r : EReal)) :
    ∑ f : Fin C, (∑ e : Fin E, if P e ∧ s e = f then w e else 0) * X f
      = ∑ e : Fin E, if P e then X (s e) * w e else 0 := by
  -- real witnesses for the weights and the values
  choose wr hwr using hw
  choose Xr hXr using hX
  -- each summand on the left is the image of a real number
  have hL : ∀ f : Fin C, (∑ e : Fin E, if P e ∧ s e = f then w e else 0) * X f
      = (((∑ e : Fin E, if P e ∧ s e = f then wr e else 0) * Xr f : ℝ) : EReal) := by
    intro f
    rw [EReal.coe_mul, coe_finset_sum, hXr f]
    congr 1
    refine Finset.sum_congr rfl (fun e _ => ?_)
    split_ifs
    · exact hwr e
    · exact EReal.coe_zero.symm
  -- each summand on the right is the image of a real number
  have hR : ∀ e : Fin E, (if P e then X (s e) * w e else 0)
      = (((if P e then Xr (s e) * wr e else 0 : ℝ)) : EReal) := by
    intro e
    split_ifs
    · rw [hXr (s e), hwr e, EReal.coe_mul]
    · exact EReal.coe_zero.symm
  rw [Finset.sum_congr rfl (fun f _ => hL f), Finset.sum_congr rfl (fun e _ => hR e),
    ← coe_finset_sum, ← coe_finset_sum]
  congr 1
  -- the identity over the reals: distribute, exchange the two sums, collapse the inner one
  simp_rw [Finset.sum_mul]
  rw [Finset.sum_comm]
  refine Finset.sum_congr rfl (fun e _ => ?_)
  by_cases hP : P e
  · simp [hP, mul_comm]
  · simp [hP]

end Cert.Lib.SumSwap

end
-- ==== Proof.KernelEq.lean ====
/-
  The kernel's entry is the specification's. The gathered adjacency row of output i, contracted with batch row b of obs, is
  the sum over the input edges into node `keys i` of obs[b, src e] · w e: the row entry at column f is the sum of the weights
  of those edges whose source is f, and a finite sum of finite weights times a finite value distributes. The same for the
  recurrent edges against prev; the gathered bias column is the bias of node `keys i`.
-/
import proofs.«422908_j73521250173176_3_alg».proof.Proof.KernelPrefix
import proofs.«422908_j73521250173176_3_alg».proof.Proof.PrefixRead
import proofs.«422908_j73521250173176_3_alg».proof.Proof.LibSumSwap
import proofs.«422908_j73521250173176_3_alg».proof.Proof.LibGather
import proofs.«422908_j73521250173176_3_alg».proof.Proof.Spec

noncomputable section

namespace Cert.KernelIdeal.Prefix

open Idealize.ShloMosaic Idealize.ShloMosaic.TcCoe Idealize.ShloMosaic.ValueIdx Idealize.SL.Sem
open Cert.KernelIdeal Cert.KernelIdeal.Gen Cert.Lib.ScatterGather Cert.Spec

/-- A dense adjacency row `A` whose column f sums the weights of the edges into node `k` from source f, contracted with
    row b of `X`, is the edge list's message into `k`. -/
theorem contract_eq_msg {C : Nat} (hC : 0 < C) (hC31 : C ≤ 2 ^ 31) (X : A2 2048 C) (w : A1 32768) (src dst : I1 32768)
    (hsrc : ∀ i, (src i).toNat < C) (hw : ∀ i, ∃ r : ℝ, w i = (r : EReal)) (hX : ∀ i, ∃ r : ℝ, X i = (r : EReal))
    (k : Nat) (b : Fin 2048) (A : Fin C → EReal)
    (hA : ∀ f : Fin C, A f = ∑ e : Fin 32768, if (dst (ix1 e)).toNat = k ∧ (src (ix1 e)).toNat = f.val then w (ix1 e) else 0) :
    ∑ f : Fin C, A f * X (ix2 b f) = msg hC X w src dst k b := by
  unfold msg
  rw [← Cert.Lib.SumSwap.sum_adj_swap (fun e => (dst (ix1 e)).toNat = k) (fun e => clampFin C hC (src (ix1 e)))
    (fun e => w (ix1 e)) (fun f => X (ix2 b f)) (fun e => hw _) (fun f => hX _)]
  refine Finset.sum_congr rfl fun f _ => ?_
  rw [hA f]
  refine congrArg (· * X (ix2 b f)) (Finset.sum_congr rfl fun e _ => ?_)
  have hc : ((src (ix1 e)).toNat = f.val) ↔ (clampFin C hC (src (ix1 e)) = f) := by
    rw [Fin.ext_iff, clampFin_val_of_lt C hC hC31 _ (hsrc _)]
  by_cases h1 : (dst (ix1 e)).toNat = k
  · by_cases h2 : (src (ix1 e)).toNat = f.val
    · rw [if_pos ⟨h1, h2⟩, if_pos ⟨h1, hc.1 h2⟩]
    · rw [if_neg (fun h => h2 h.2), if_neg (fun h => h2 (hc.2 h.2))]
  · rw [if_neg (fun h => h1 h.1), if_neg (fun h => h1 h.1)]

variable (m : (ℓ : Loc nD τ sig) → Buf (Elt Ideal) ℓ)

/-- The kernel body's entry (i, b) of the arrays the region finds is the activation of node `keys i` for batch row b. -/
theorem outAt_eq_act (c : Dev nD)
    (h : Dom (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9))) (b : Fin 2048) (i : Fin 64) :
    outAt (V m c main_v67) (V m c main_arg0) (V m c main_v75) (V m c main_arg1) (V m c main_v83) i b
      = act (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) b i := by
  rw [V_main_v67, V_main_v75, V_main_v83, V_main_arg0, V_main_arg1]
  unfold outAt act
  rw [biasG_apply _ _ h.keys_lt i]
  rw [contract_eq_msg (by decide) (by decide) _ _ _ _ h.src_in_lt h.w_in_fin h.obs_fin _ b _
      (fun f => adjGIn_apply _ _ _ _ h.src_in_lt h.dst_in_lt h.keys_lt i f),
    contract_eq_msg (by decide) (by decide) _ _ _ _ h.src_rec_lt h.w_rec_fin h.prev_fin _ b _
      (fun f => adjGRec_apply _ _ _ _ h.src_rec_lt h.dst_rec_lt h.keys_lt i f)]

end Cert.KernelIdeal.Prefix

end
-- ==== Proof.lean ====
/-
  Message passing over two weighted edge lists, a gathered-rows kernel against a segment-sum reference.

  Both programs take obs [2048 × 512], prev [2048 × 2048], two lists of 32768 weighted edges (src, dst, w) — input edges from the
  512 feature columns, recurrent edges from the 2048 state columns, both into 2048 nodes —, a bias per node and 64 output keys, and
  return [2048 × 64]: at (b, i) the activation  tanh (∑_{e : dst e = k} obs[b, src e]·w e + ∑_{e : dst e = k} prev[b, src e]·w e + bias k)
  of node k = keys i (`Spec.G`).

  The reference multiplies every edge's gathered source row by its weight, segment-sums the rows by destination node over all
  2048 nodes, adds the bias, applies tanh and takes the 64 key rows (`RefValue.ref_eq`). The kernel never builds the 2048 rows:
  a table sends each node to a position among the keys (64 for a node that is no key), every edge's weight is scatter-added at
  (table entry of its destination, its source) into a 65-row adjacency buffer, the rows at the keys' table entries are taken, and
  a Pallas region contracts those 64 adjacency rows with obs and prev block by block of 512 batch rows, adds the gathered bias and
  applies tanh; a transpose lays the result out [2048 × 64] (`KValue.run`). Two nodes of which one is a key share a table entry only if
  they are one node (`keyPos_eq_iff`), so the gathered row of output i at column f is the sum of the weights of the edges from f into
  `keys i` (`adjGIn_apply`), and contracting it with a batch row is the sum over those edges (`contract_eq_msg`): distributivity of
  a finite sum, which on the extended reals needs the weights and the values finite.

  The statement is made on the domain where every float input is finite and every index lies inside the array the reference indexes
  with it (`Spec.Dom`, decoded from the printed precondition by `PreFacts.dom_of_pre`): outside it the two programs' gathers clamp and
  their scatters drop at different places.
-/
import proofs.«422908_j73521250173176_3_alg».proof.Defs
import proofs.«422908_j73521250173176_3_alg».proof.Proof.Gen.Kernel
import proofs.«422908_j73521250173176_3_alg».proof.Proof.Gen.Kernel.Skeleton
import proofs.«422908_j73521250173176_3_alg».proof.Proof.Gen.Kernel.Launch
import proofs.«422908_j73521250173176_3_alg».proof.Proof.Gen.Kernel.Points
import proofs.«422908_j73521250173176_3_alg».proof.Proof.Gen.Kernel.Frame
import proofs.«422908_j73521250173176_3_alg».proof.Proof.Gen.KernelIdeal
import proofs.«422908_j73521250173176_3_alg».proof.Proof.Gen.KernelIdeal.Skeleton
import proofs.«422908_j73521250173176_3_alg».proof.Proof.Gen.KernelIdeal.Launch
import proofs.«422908_j73521250173176_3_alg».proof.Proof.Gen.KernelIdeal.Points
import proofs.«422908_j73521250173176_3_alg».proof.Proof.Gen.KernelIdeal.Frame
import proofs.«422908_j73521250173176_3_alg».proof.Proof.Gen.ReferenceIdeal
import proofs.«422908_j73521250173176_3_alg».proof.Proof.Gen.Pre_finite_inputs
import proofs.«422908_j73521250173176_3_alg».proof.Proof.Gen.ReferenceIdeal.Run
import proofs.«422908_j73521250173176_3_alg».proof.Proof.Gen.ReferenceIdeal.Read
import Idealize.ShloMosaic.Adequacy
import Idealize.ShloMosaic.Init
import proofs.«422908_j73521250173176_3_alg».proof.Proof.Spec
import proofs.«422908_j73521250173176_3_alg».proof.Proof.PreFacts
import proofs.«422908_j73521250173176_3_alg».proof.Proof.RefValue
import proofs.«422908_j73521250173176_3_alg».proof.Proof.KernelValue
import proofs.«422908_j73521250173176_3_alg».proof.Proof.KernelEq

noncomputable section

namespace Cert.Proof

open Idealize.ShloMosaic Idealize.ShloMosaic.TcCoe Idealize.SL.Sem

/-- The three frames: the generated frame certificates of the two kernel programs, and the reference's generated run with its
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- On the domain the kernel program ends at `kernelOut`, the reference at `Spec.G` of the same arguments, and the two are one
    function entry by entry. -/
theorem algebraic : Cert.algebraic_KernelIdeal_ReferenceIdeal := by
  intro m ρ m' ρ' hpre hagree
  refine ⟨fun c => Cert.KernelIdeal.KValue.kernelOut m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hd := Cert.PreFacts.dom_of_pre _ _ _ _ _ _ _ _ _ _ (hpre c)
  obtain ⟨h0, h1, h2, h3, h4, h5, h6, h7, h8, h9⟩ := hagree c
  rw [h0, h1, h2, h3, h4, h5, h6, h7, h8, h9, Cert.ReferenceIdeal.Read.val_main_v40_eq,
    Cert.ReferenceIdeal.RefValue.ref_eq _ _ _ _ _ _ _ _ _ _ hd]
  funext j
  obtain ⟨b, i, rfl⟩ : ∃ (b : Fin 2048) (i : Fin 64), j = ValueIdx.ix2 b i := ⟨j 0, j 1, ValueIdx.eq_ix2 j⟩
  show Cert.Spec.act _ _ _ _ _ _ _ _ _ _ b i = Cert.Spec.outAt _ _ _ _ _ i b
  exact (Cert.KernelIdeal.Prefix.outAt_eq_act m c hd b i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
